-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_

variable [Facts]

def fn_part2 {F : FTy → Type} [FloatOps F] (main_arg8 : FVec F S128x47 .f32) (main_arg9 : FVec F S47 .f32) (main_arg10 : FVec F S128x47 .f32) (main_v33 : IVec S_ 1) : IVec S_ 1 :=
  let main_v34 : FVec F S128x47 .f32 := Host.absf main_arg8
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S47 .f32 := Host.absf main_arg9
  let main_cst_14 : FVec F S_ .f32 := constant S_ .f32 0x7F800000#32
  let main_v40 : FVec F S47 .f32 := broadcastInDim S47 ![] bcast_S_S47 main_cst_14
  let main_v41 : IVec S47 1 := cmpf .olt main_v39 main_v40
  let main_c_15 : IVec S_ 1 := constantI S_ 1 1#1
  let main_v42 : IVec S_ 1 := (fun x v => Host.reduce IntOp.andi x v reducesTo_S47_S_d0 h_S_) main_v41 main_c_15
  let main_v43 : IVec S_ 1 := andi main_v38 main_v42
  let main_v44 : FVec F S128x47 .f32 := Host.absf main_arg10
  let main_cst_16 : FVec F S_ .f32 := constant S_ .f32 0x7F800000#32
  let main_v45 : FVec F S128x47 .f32 := broadcastInDim S128x47 ![] bcast_S_S128x47 main_cst_16
  let main_v46 : IVec S128x47 1 := cmpf .olt main_v44 main_v45
  let main_c_17 : IVec S_ 1 := constantI S_ 1 1#1
  let main_v47 : IVec S_ 1 := (fun x v => Host.reduce IntOp.andi x v reducesTo_S128x47_S_d0_1 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x128 .f32) (main_arg8 : FVec F S128x47 .f32) (main_arg9 : FVec F S47 .f32) (main_arg10 : FVec F S128x47 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S128x47 .f32) (main_arg9 : FVec F S47 .f32) (main_arg10 : FVec F S128x47 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S1x47 : Shape := ⟨2, ![1, 47]⟩
abbrev S100000x47 : Shape := ⟨2, ![100000, 47]⟩
abbrev S5000x47 : Shape := ⟨2, ![5000, 47]⟩
abbrev S5000 : Shape := ⟨1, ![5000]⟩
abbrev S5000x1 : Shape := ⟨2, ![5000, 1]⟩

abbrev nBuf : Space → Nat
  | .hbm => 79
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x47, .f32⟩
  | .hbm, ⟨9, _⟩ => ⟨S47, .f32⟩
  | .hbm, ⟨10, _⟩ => ⟨S128x47, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S1x47, .f32⟩
  | .hbm, ⟨78, _⟩ => ⟨S100000x47, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x47, .f32⟩
  | .local _ .vmem, ⟨23, _⟩ => ⟨S1x47, .f32⟩
  | .local _ .vmem, ⟨24, _⟩ => ⟨S128x47, .f32⟩
  | .local _ .vmem, ⟨25, _⟩ => ⟨S5000x47, .f32⟩
  | .local _ .vmem, ⟨26, _⟩ => ⟨S5000x47, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_8 : Ref sig .tc := ⟨.hbm, 62, rfl⟩
abbrev main_v41 : Ref sig .tc := ⟨.hbm, 63, rfl⟩
abbrev main_v42 : Ref sig .tc := ⟨.hbm, 64, rfl⟩
abbrev main_c_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x47 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x47 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S5000x47 : S1x47.Broadcasts S5000x47
  reduces_S5000x47_S5000 : S5000x47.Reduces [1] S5000
  shapeCasts_S5000_S5000x1 : S5000.ShapeCasts S5000x1
  broadcasts_S5000x1_S5000x47 : S5000x1.Broadcasts S5000x47
  inb_S5000x47_S5000x47_0_0 : ∀ a, (![0, 0] : Fin 2 → Nat) a + S5000x47.size a ≤ S5000x47.size a
  h_S5000x47 : 0 < S5000x47.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x47_S5000x47_1_0_0_1_n_n_wf : DotDims.WF S5000x128 S128x47 S5000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x47.size a ≤ S128x47.size a
  hwx2_2 : ∀ i : grid2.Coords, EltTy.bits .f32 = 32 ∨ (Rect.block (s := S128x47) S128x47.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x47.size a ≤ S1x47.size a
  hwx2_3 : ∀ i : grid2.Coords, EltTy.bits .f32 = 32 ∨ (Rect.block (s := S1x47) S1x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x47.size a ≤ S128x47.size a
  hwx2_4 : ∀ i : grid2.Coords, EltTy.bits .f32 = 32 ∨ (Rect.block (s := S128x47) S128x47.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x47.size a ≤ S100000x47.size a
  hwx2_5 : ∀ i : grid2.Coords, EltTy.bits .f32 = 32 ∨ (Rect.block (s := S100000x47) S5000x47.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x47_S5000x47_1_0_0_1_n_n : DotDims S5000x128 S128x47 S5000x47 where
  lhsContracting := [1]
  rhsContracting := [0]
  lhsNonContracting := [0]
  rhsNonContracting := [1]
  lhsBatch := []
  rhsBatch := []
  wf := dot_S5000x128_S128x47_S5000x47_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x47.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x47.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x47 : Shape := ⟨2, ![100000, 47]⟩
abbrev S1x47 : Shape := ⟨2, ![1, 47]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x47, .f32⟩
  | .hbm, ⟨9, _⟩ => ⟨S47, .f32⟩
  | .hbm, ⟨10, _⟩ => ⟨S128x47, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S_, .f32⟩
  | .hbm, ⟨86, _⟩ => ⟨S100000x128, .f32⟩
  | .hbm, ⟨87, _⟩ => ⟨S1600000x1, .i32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S100000x47, .f32⟩
  | .hbm, ⟨92, _⟩ => ⟨S1x47, .f32⟩
  | .hbm, ⟨93, _⟩ => ⟨S100000x47, .f32⟩
  | .hbm, ⟨94, _⟩ => ⟨S100000x47, .f32⟩
  | .hbm, ⟨95, _⟩ => ⟨S100000x47, .f32⟩
  | .hbm, ⟨96, _⟩ => ⟨S100000x47, .f32⟩
  | .hbm, ⟨97, _⟩ => ⟨S_, .f32⟩
  | .hbm, ⟨98, _⟩ => ⟨S100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S100000x1, .f32⟩
  | .hbm, ⟨103, _⟩ => ⟨S100000x47, .f32⟩
  | .hbm, ⟨104, _⟩ => ⟨S100000x47, .f32⟩
  | .hbm, ⟨105, _⟩ => ⟨S100000x47, .f32⟩
  | .hbm, ⟨106, _⟩ => ⟨S_, .f32⟩
  | .hbm, ⟨107, _⟩ => ⟨S100000, .f32⟩
  | .hbm, ⟨108, _⟩ => ⟨S100000x1, .f32⟩
  | .hbm, ⟨109, _⟩ => ⟨S100000x1, .f32⟩
  | .hbm, ⟨110, _⟩ => ⟨S100000x47, .f32⟩
  | .hbm, ⟨111, _⟩ => ⟨S100000x47, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_call1_cst : Ref sig .tc := ⟨.hbm, 73, rfl⟩
abbrev main_call1_v0 : Ref sig .tc := ⟨.hbm, 74, rfl⟩
abbrev main_v50 : Ref sig .tc := ⟨.hbm, 75, rfl⟩
abbrev main_c_8 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_10 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_call2_cst : Ref sig .tc := ⟨.hbm, 97, rfl⟩
abbrev main_call2_v0 : Ref sig .tc := ⟨.hbm, 98, rfl⟩
abbrev main_call2_cst_0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_cst_1 : Ref sig .tc := ⟨.hbm, 106, rfl⟩
abbrev main_call2_v7 : Ref sig .tc := ⟨.hbm, 107, rfl⟩
abbrev main_call2_v8 : Ref sig .tc := ⟨.hbm, 108, rfl⟩
abbrev main_call2_v9 : Ref sig .tc := ⟨.hbm, 109, rfl⟩
abbrev main_call2_v10 : Ref sig .tc := ⟨.hbm, 110, rfl⟩
abbrev main_v69 : Ref sig .tc := ⟨.hbm, 111, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S47_S1x47_1 : S47.BroadcastsInDim S1x47 (![1] : Fin 1 → Fin S1x47.rank)
  bcast_S1x47_S100000x47_0_1 : S1x47.BroadcastsInDim S100000x47 (![0, 1] : Fin 2 → Fin S100000x47.rank)
  reducesTo_S100000x47_S100000_d1 : S100000x47.ReducesTo [1] S100000
  h_S_ : 0 < S_.numel
  bcast_S100000x1_S100000x47_0_1 : S100000x1.BroadcastsInDim S100000x47 (![0, 1] : Fin 2 → Fin S100000x47.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x47_S100000x47_1_0_0_1_n_n_wf : DotDims.WF S100000x128 S128x47 S100000x47 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x47_S100000x47_1_0_0_1_n_n : DotDims S100000x128 S128x47 S100000x47 where
  lhsContracting := [1]
  rhsContracting := [0]
  lhsNonContracting := [0]
  rhsNonContracting := [1]
  lhsBatch := []
  rhsBatch := []
  wf := dot_S100000x128_S128x47_S100000x47_1_0_0_1_n_n_wf

class Facts : Prop extends Facts₀ where

variable [Facts]
-- ==== Proof.PayRelu.lean ====
/-
  The two hidden layers' kernel bodies, read at one entry of a 5000-row block.

  On a block `x0` of aggregated features, a block `x1` of node features, the weights `x2`, `x4` and the bias row `x3`,
  the body forms x0·x2 and x1·x4 (each into a zero accumulator, the operands passed through a change of float format,
  which is the identity on the extended reals), adds the two, adds the bias row spread over the rows, and clamps below at
  zero. So at (p, q) it is  max ((∑ₖ x0(p,k)·x2(k,q) + ∑ₖ x1(p,k)·x4(k,q)) + x3(0,q)) 0.
  A product with a zero accumulator read at an entry is the sum over the contracted axis; the operand indices of the
  printed contraction are (p, k) and (k, q), one axis at a time.
-/
import proofs.«173815_j78408922955889_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Sage.KPay

open Idealize.ShloMosaic Idealize.ShloMosaic.ValueIdx Cert.KernelIdeal Cert.KernelIdeal.Gen

theorem lhs128_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs128_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs128_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs128_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix into a zero accumulator, at (p, q): ∑ₖ l(p,k)·r(k,q). -/
theorem matmul128_apply {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-- The first layer's body at (p, q). -/
theorem pay0_apply (x0 x1 : FVec Ideal S5000x128 .f32) (x2 x4 : FVec Ideal S128x128 .f32) (x3 : FVec Ideal S1x128 .f32)
    (p : Fin 5000) (q : Fin 128) :
    k0_pay1 (F := Ideal) x0 x1 x2 x4 x3 (ix2 p q)
      = max ((∑ k : Fin 128, x0 (ix2 p k) * x2 (ix2 k q) + ∑ k : Fin 128, x1 (ix2 p k) * x4 (ix2 k q)) + x3 (ix2 (0 : Fin 1) q))
          (Ideal.ofBits .f32 0x00000000#32) := by
  unfold k0_pay1
  simp only [maximumf_apply, addf_apply, broadcast_apply, matmul128_apply, truncf_apply, shapeCast_self]
  rw [broadcastTo_1b_ab_apply]
  rfl

/-- The second layer's body at (p, q): the same function. -/
theorem pay1_apply (x0 x1 : FVec Ideal S5000x128 .f32) (x2 x4 : FVec Ideal S128x128 .f32) (x3 : FVec Ideal S1x128 .f32)
    (p : Fin 5000) (q : Fin 128) :
    k1_pay1 (F := Ideal) x0 x1 x2 x4 x3 (ix2 p q)
      = max ((∑ k : Fin 128, x0 (ix2 p k) * x2 (ix2 k q) + ∑ k : Fin 128, x1 (ix2 p k) * x4 (ix2 k q)) + x3 (ix2 (0 : Fin 1) q))
          (Ideal.ofBits .f32 0x00000000#32) := by
  unfold k1_pay1
  simp only [maximumf_apply, addf_apply, broadcast_apply, matmul128_apply, truncf_apply, shapeCast_self]
  rw [broadcastTo_1b_ab_apply]
  rfl

end Cert.Sage.KPay

end
-- ==== Proof.Spec.lean ====
/-
  The mathematics both programs compute, over the extended reals, index by index.

  A layer of the network takes the aggregated features `A` and the node features `H` (both 100000 × 128), two weight
  matrices `Wl`, `Wr` and a bias row `b`, and forms at row `r`, column `q`
      lin r q = (∑ₖ A(r,k)·Wl(k,q) + ∑ₖ H(r,k)·Wr(k,q)) + b(0,q).
  The first two layers clamp it below at zero; the last one (47 columns) takes the logarithm of the soft maximum
  along the row: with `M` the row's maximum, lin r q − M − log ∑ⱼ exp (lin r j − M).
  Nothing here is evaluated: the zero and the −∞ the maxima start from stay the bit patterns the programs print.
-/
import Idealize.ShloMosaic.PureOps.Ideal
import Idealize.ShloMosaic.Lib.ValueIdx

noncomputable section

namespace Cert.Sage

open Idealize.ShloMosaic Idealize.ShloMosaic.ValueIdx

/-- The affine part of a 128-column layer at row `r`, column `q`. -/
def lin128 (A H : (⟨2, ![100000, 128]⟩ : Shape).Idx → EReal) (Wl Wr : (⟨2, ![128, 128]⟩ : Shape).Idx → EReal)
    (b : (⟨2, ![1, 128]⟩ : Shape).Idx → EReal) (r : Fin 100000) (q : Fin 128) : EReal :=
  (∑ k : Fin 128, A (ix2 r k) * Wl (ix2 k q) + ∑ k : Fin 128, H (ix2 r k) * Wr (ix2 k q)) + b (ix2 (0 : Fin 1) q)

/-- A hidden layer: the affine part clamped below at zero. -/
def reluLayer (A H : (⟨2, ![100000, 128]⟩ : Shape).Idx → EReal) (Wl Wr : (⟨2, ![128, 128]⟩ : Shape).Idx → EReal)
    (b : (⟨2, ![1, 128]⟩ : Shape).Idx → EReal) : (⟨2, ![100000, 128]⟩ : Shape).Idx → EReal :=
  fun i => max (lin128 A H Wl Wr b (i 0) (i 1)) (Ideal.ofBits .f32 0x00000000#32)

/-- The affine part of the 47-column layer at row `r`, column `q`. -/
def lin47 (A H : (⟨2, ![100000, 128]⟩ : Shape).Idx → EReal) (Wl Wr : (⟨2, ![128, 47]⟩ : Shape).Idx → EReal)
    (b : (⟨2, ![1, 47]⟩ : Shape).Idx → EReal) (r : Fin 100000) (q : Fin 47) : EReal :=
  (∑ k : Fin 128, A (ix2 r k) * Wl (ix2 k q) + ∑ k : Fin 128, H (ix2 r k) * Wr (ix2 k q)) + b (ix2 (0 : Fin 1) q)

/-- The maximum of a row of 47 entries, folded from −∞. -/
def rowMax (z : Fin 47 → EReal) : EReal :=
  (Finset.univ : Finset (Fin 47)).fold max (Ideal.ofBits .f32 0xFF800000#32) z

/-- The logarithm of the soft maximum of a row, entry `q`: the entry less the row's maximum, less the logarithm of the
    sum of the exponentials of the entries so shifted. -/
def logSoftmaxRow (z : Fin 47 → EReal) (q : Fin 47) : EReal :=
  (z q - rowMax z) - Ideal.log (∑ j : Fin 47, Ideal.exp (z j - rowMax z))

/-- The last layer: the affine part, then the logarithm of the soft maximum along each row. -/
def logSoftmaxLayer (A H : (⟨2, ![100000, 128]⟩ : Shape).Idx → EReal) (Wl Wr : (⟨2, ![128, 47]⟩ : Shape).Idx → EReal)
    (b : (⟨2, ![1, 47]⟩ : Shape).Idx → EReal) : (⟨2, ![100000, 47]⟩ : Shape).Idx → EReal :=
  fun i => logSoftmaxRow (lin47 A H Wl Wr b (i 0)) (i 1)

end Cert.Sage

end
-- ==== Proof.KRegion0.lean ====
/-
  What region 0 of the kernel's program leaves in its output array, as one function of the arrays it finds.

  The grid has 20 points; point `t` stages rows 5000·t … 5000·t + 4999 of the aggregated features and of the node
  features, the whole of the two weight matrices and of the bias row, and writes back the same rows of the output. Entry
  (p, q) of the block the body leaves depends on row p of the two staged row blocks only, so it is entry (5000·t + p, q)
  of the layer's function of the whole arrays; the 20 row blocks tile the 100000 rows, so the output array ends as that
  function everywhere.
-/
import proofs.«173815_j78408922955889_1_alg».proof.Proof.Gen.KernelIdeal.Frame
import proofs.«173815_j78408922955889_1_alg».proof.Proof.PayRelu
import proofs.«173815_j78408922955889_1_alg».proof.Proof.Spec
import Idealize.ShloMosaic.Lib.Pipeline.Value

set_option maxRecDepth 16384

noncomputable section

namespace Cert.Sage.KRegion0

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's entry `j` of a block is entry `i` of the layer's function of the whole arrays, when the staged blocks
    hold, along row `j 0` and column `j 1`, what the arrays hold along row `i 0` and column `i 1`. -/
theorem body_eq (A H : (⟨2, ![100000, 128]⟩ : Shape).Idx → EReal) (Wl Wr : (⟨2, ![128, 128]⟩ : Shape).Idx → EReal)
    (b : (⟨2, ![1, 128]⟩ : Shape).Idx → EReal)
    (x0 x1 : FVec Ideal S5000x128 .f32) (x2 x4 : FVec Ideal S128x128 .f32) (x3 : FVec Ideal S1x128 .f32)
    (p : Fin 5000) (q : Fin 128) (i : (⟨2, ![100000, 128]⟩ : Shape).Idx)
    (h0 : ∀ k : Fin 128, x0 (ix2 p k) = A (ix2 (i 0) k))
    (h1 : ∀ k : Fin 128, x1 (ix2 p k) = H (ix2 (i 0) k))
    (h2 : ∀ k : Fin 128, x2 (ix2 k q) = Wl (ix2 k (i 1)))
    (h4 : ∀ k : Fin 128, x4 (ix2 k q) = Wr (ix2 k (i 1)))
    (h3 : x3 (ix2 (0 : Fin 1) q) = b (ix2 (0 : Fin 1) (i 1))) :
    k0_pay1 (F := Ideal) x0 x1 x2 x4 x3 (ix2 p q) = reluLayer A H Wl Wr b i := by
  rw [KPay.pay0_apply]
  unfold reluLayer lin128
  simp only [h0, h1, h2, h4, h3]

/-- The printed index maps over the grid: the row blocks move with the point, the weights and the bias stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the layer's function of the arrays as the region finds them. -/
theorem flushed_eq (c : Dev nD) (t : Fin cfg0.N) :
    (dat0 V c).flushed 5 t = ((cfg0.win 5).blk t).view.read (Elt Ideal)
      (reluLayer (V c main_v24) (V c main_arg0) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  refine body_eq (V c main_v24) (V c main_arg0) (V c main_arg2) (V c main_arg4) (V c main_v25)
    (iblk0 V c 0 t) (iblk0 V c 1 t) (iblk0 V c 2 t) (iblk0 V c 4 t) (iblk0 V c 3 t) p q
    (((cfg0.win 5).blk t).view.emb (ix2 p q)) ?_ ?_ ?_ ?_ ?_
  · intro k
    show V c main_v24 (((cfg0.win 0).blk t).view.emb (ix2 p k)) = V c main_v24 _
    refine congrArg (V c main_v24) (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  · intro k
    show V c main_arg0 (((cfg0.win 1).blk t).view.emb (ix2 p k)) = V c main_arg0 _
    refine congrArg (V c main_arg0) (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  · intro k
    show V c main_arg2 (((cfg0.win 2).blk t).view.emb (ix2 k q)) = V c main_arg2 _
    refine congrArg (V c main_arg2) (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  · intro k
    show V c main_arg4 (((cfg0.win 4).blk t).view.emb (ix2 k q)) = V c main_arg4 _
    refine congrArg (V c main_arg4) (funext fun a => Fin.ext ?_)
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  · show V c main_v25 (((cfg0.win 3).blk t).view.emb (ix2 (0 : Fin 1) q)) = V c main_v25 _
    refine congrArg (V c main_v25) (funext fun a => Fin.ext ?_)
    match a with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Every index of the output array lies in the block of the point its row falls in. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e00, e01, e10, e11, e20, e21, e30, e31, e40, e41, e50, e51⟩ := idx_facts t
  have ht : t.val = (i 0).val / 5000 := rfl
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the layer's function of the arrays the region finds. -/
theorem arr_eq (c : Dev nD) :
    (dat0 V c).arrAt 5 cfg0.N
      = reluLayer (V c main_v24) (V c main_arg0) (V c main_arg2) (V c main_arg4) (V c main_v25) :=
  (dat0 V c).arrAt_eq_of_cover 5 _ (fun t _ => flushed_eq V c t) cover

end Cert.Sage.KRegion0

end
-- ==== Proof.KRegion1.lean ====
/-
  What region 1 of the kernel's program leaves in its output array, as one function of the arrays it finds.

  The grid has 20 points; point `t` stages rows 5000·t … 5000·t + 4999 of the aggregated features and of the node
  features, the whole of the two weight matrices and of the bias row, and writes back the same rows of the output. Entry
  (p, q) of the block the body leaves depends on row p of the two staged row blocks only, so it is entry (5000·t + p, q)
  of the layer's function of the whole arrays; the 20 row blocks tile the 100000 rows, so the output array ends as that
  function everywhere.
-/
import proofs.«173815_j78408922955889_1_alg».proof.Proof.Gen.KernelIdeal.Frame
import proofs.«173815_j78408922955889_1_alg».proof.Proof.PayRelu
import proofs.«173815_j78408922955889_1_alg».proof.Proof.Spec
import Idealize.ShloMosaic.Lib.Pipeline.Value

set_option maxRecDepth 16384

noncomputable section

namespace Cert.Sage.KRegion1

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's entry `j` of a block is entry `i` of the layer's function of the whole arrays, when the staged blocks
    hold, along row `j 0` and column `j 1`, what the arrays hold along row `i 0` and column `i 1`. -/
theorem body_eq (A H : (⟨2, ![100000, 128]⟩ : Shape).Idx → EReal) (Wl Wr : (⟨2, ![128, 128]⟩ : Shape).Idx → EReal)
    (b : (⟨2, ![1, 128]⟩ : Shape).Idx → EReal)
    (x0 x1 : FVec Ideal S5000x128 .f32) (x2 x4 : FVec Ideal S128x128 .f32) (x3 : FVec Ideal S1x128 .f32)
    (p : Fin 5000) (q : Fin 128) (i : (⟨2, ![100000, 128]⟩ : Shape).Idx)
    (h0 : ∀ k : Fin 128, x0 (ix2 p k) = A (ix2 (i 0) k))
    (h1 : ∀ k : Fin 128, x1 (ix2 p k) = H (ix2 (i 0) k))
    (h2 : ∀ k : Fin 128, x2 (ix2 k q) = Wl (ix2 k (i 1)))
    (h4 : ∀ k : Fin 128, x4 (ix2 k q) = Wr (ix2 k (i 1)))
    (h3 : x3 (ix2 (0 : Fin 1) q) = b (ix2 (0 : Fin 1) (i 1))) :
    k1_pay1 (F := Ideal) x0 x1 x2 x4 x3 (ix2 p q) = reluLayer A H Wl Wr b i := by
  rw [KPay.pay1_apply]
  unfold reluLayer lin128
  simp only [h0, h1, h2, h4, h3]

/-- The printed index maps over the grid: the row blocks move with the point, the weights and the bias stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the layer's function of the arrays as the region finds them. -/
theorem flushed_eq (c : Dev nD) (t : Fin cfg1.N) :
    (dat1 V c).flushed 5 t = ((cfg1.win 5).blk t).view.read (Elt Ideal)
      (reluLayer (V c main_v38) (V c main_v26) (V c main_arg5) (V c main_arg7) (V c main_v39)) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  obtain ⟨p, q, rfl⟩ : ∃ (p : Fin 5000) (q : Fin 128), j = ix2 p q := ⟨j 0, j 1, eq_ix2 j⟩
  refine body_eq (V c main_v38) (V c main_v26) (V c main_arg5) (V c main_arg7) (V c main_v39)
    (iblk1 V c 0 t) (iblk1 V c 1 t) (iblk1 V c 2 t) (iblk1 V c 4 t) (iblk1 V c 3 t) p q
    (((cfg1.win 5).blk t).view.emb (ix2 p q)) ?_ ?_ ?_ ?_ ?_
  · intro k
    show V c main_v38 (((cfg1.win 0).blk t).view.emb (ix2 p k)) = V c main_v38 _
    refine congrArg (V c main_v38) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  · intro k
    show V c main_v26 (((cfg1.win 1).blk t).view.emb (ix2 p k)) = V c main_v26 _
    refine congrArg (V c main_v26) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  · intro k
    show V c main_arg5 (((cfg1.win 2).blk t).view.emb (ix2 k q)) = V c main_arg5 _
    refine congrArg (V c main_arg5) (funext fun a => Fin.ext ?_)
    match a with
    | ⟨0, _⟩ => show win1_2.index t (0 : Fin 2) * 128 + 1 * k.val = k.val; omega
    | ⟨1, _⟩ => show win1_2.index t (1 : Fin 2) * 128 + 1 * q.val = win1_5.index t (1 : Fin 2) * 128 + 1 * q.val; omega
  · intro k
    show V c main_arg7 (((cfg1.win 4).blk t).view.emb (ix2 k q)) = V c main_arg7 _
    refine congrArg (V c main_arg7) (funext fun a => Fin.ext ?_)
    match a with
    | ⟨0, _⟩ => show win1_4.index t (0 : Fin 2) * 128 + 1 * k.val = k.val; omega
    | ⟨1, _⟩ => show win1_4.index t (1 : Fin 2) * 128 + 1 * q.val = win1_5.index t (1 : Fin 2) * 128 + 1 * q.val; omega
  · show V c main_v39 (((cfg1.win 3).blk t).view.emb (ix2 (0 : Fin 1) q)) = V c main_v39 _
    refine congrArg (V c main_v39) (funext fun a => Fin.ext ?_)
    match a with
    | ⟨0, _⟩ => show win1_3.index t (0 : Fin 2) * 1 + 1 * 0 = 0; omega
    | ⟨1, _⟩ => show win1_3.index t (1 : Fin 2) * 128 + 1 * q.val = win1_5.index t (1 : Fin 2) * 128 + 1 * q.val; omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v40).slice (win1_5.rect t)).set ↔ _
  rw [View.set_slice_whole, Rect.mem_set_unit]
  exact Iff.rfl

/-- Every index of the output array lies in the block of the point its row falls in. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e00, e01, e10, e11, e20, e21, e30, e31, e40, e41, e50, e51⟩ := idx_facts t
  have ht : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the layer's function of the arrays the region finds. -/
theorem arr_eq (c : Dev nD) :
    (dat1 V c).arrAt 5 cfg1.N
      = reluLayer (V c main_v38) (V c main_v26) (V c main_arg5) (V c main_arg7) (V c main_v39) :=
  (dat1 V c).arrAt_eq_of_cover 5 _ (fun t _ => flushed_eq V c t) cover

end Cert.Sage.KRegion1

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.PayLsm.lean ====
/-
  The last layer's kernel body, read at one entry of a 5000-row block.

  The body forms the affine part z(p,q) = (∑ₖ x0(p,k)·x2(k,q) + ∑ₖ x1(p,k)·x4(k,q)) + x3(0,q) over 47 columns as the hidden
  layers do over 128, then along each row: the maximum M(p) folded from −∞, the shifted row z(p,·) − M(p), the sum of its
  exponentials, and finally z(p,q) − M(p) − log ∑ⱼ exp (z(p,j) − M(p)). The row's maximum and the row's sum are lane
  reductions over the second axis; each is kept as a column ([5000] cast to [5000, 1]) and spread back over the 47 columns.
-/
import proofs.«173815_j78408922955889_1_alg».proof.Proof.Gen.KernelIdeal.Skeleton
import proofs.«173815_j78408922955889_1_alg».proof.Proof.LibColumn
import proofs.«173815_j78408922955889_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Sage.KPay

open Idealize.ShloMosaic Idealize.ShloMosaic.ValueIdx Cert.KernelIdeal Cert.KernelIdeal.Gen Cert.Sage

theorem lhs47_0 (i : S5000x47.Idx) (q : dot_S5000x128_S128x47_S5000x47_1_0_0_1_n_n.contr.Idx) :
    (dot_S5000x128_S128x47_S5000x47_1_0_0_1_n_n.lhsIdx i q 0).val = (i 0).val := by
  unfold DotDims.lhsIdx
  rw [dif_neg (show ¬(0 : Fin S5000x128.rank) ∈ dot_S5000x128_S128x47_S5000x47_1_0_0_1_n_n.lhsBatch by decide), dif_pos (show (0 : Fin S5000x128.rank) ∈ dot_S5000x128_S128x47_S5000x47_1_0_0_1_n_n.lhsNonContracting by decide)]
  rfl
theorem lhs47_1 (i : S5000x47.Idx) (q : dot_S5000x128_S128x47_S5000x47_1_0_0_1_n_n.contr.Idx) :
    (dot_S5000x128_S128x47_S5000x47_1_0_0_1_n_n.lhsIdx i q 1).val = (q ⟨0, by decide⟩).val :=
  dot_S5000x128_S128x47_S5000x47_1_0_0_1_n_n.lhsIdx_val_of_single rfl i q
theorem rhs47_0 (i : S5000x47.Idx) (q : dot_S5000x128_S128x47_S5000x47_1_0_0_1_n_n.contr.Idx) :
    (dot_S5000x128_S128x47_S5000x47_1_0_0_1_n_n.rhsIdx i q 0).val = (q ⟨0, by decide⟩).val :=
  dot_S5000x128_S128x47_S5000x47_1_0_0_1_n_n.rhsIdx_val_of_single rfl i q
theorem rhs47_1 (i : S5000x47.Idx) (q : dot_S5000x128_S128x47_S5000x47_1_0_0_1_n_n.contr.Idx) :
    (dot_S5000x128_S128x47_S5000x47_1_0_0_1_n_n.rhsIdx i q 1).val = (i 1).val := by
  unfold DotDims.rhsIdx
  rw [dif_neg (show ¬(1 : Fin S128x47.rank) ∈ dot_S5000x128_S128x47_S5000x47_1_0_0_1_n_n.rhsBatch by decide), dif_pos (show (1 : Fin S128x47.rank) ∈ dot_S5000x128_S128x47_S5000x47_1_0_0_1_n_n.rhsNonContracting by decide)]
  rfl

/-- A 5000 × 128 block times a 128 × 47 matrix into a zero accumulator, at (p, q): ∑ₖ l(p,k)·r(k,q). -/
theorem matmul47_apply {φ₁ φ₂ : FTy} (l : FVec Ideal S5000x128 φ₁) (r : FVec Ideal S128x47 φ₂) (p : Fin 5000) (q : Fin 47) :
    matmul dot_S5000x128_S128x47_S5000x47_1_0_0_1_n_n none l r (constant S5000x47 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x47_S5000x47_1_0_0_1_n_n 128 rfl rfl).symm]
  refine Finset.sum_congr rfl fun k _ => ?_
  have hk := ValueIdx.contrEquiv1_symm_val dot_S5000x128_S128x47_S5000x47_1_0_0_1_n_n 128 rfl rfl k
  have el : dot_S5000x128_S128x47_S5000x47_1_0_0_1_n_n.lhsIdx (ix2 p q) ((ValueIdx.contrEquiv1 dot_S5000x128_S128x47_S5000x47_1_0_0_1_n_n 128 rfl rfl).symm k) = ix2 p k := funext fun a => Fin.ext (by
    match a with
    | ⟨0, _⟩ => exact lhs47_0 _ _
    | ⟨1, _⟩ => exact (lhs47_1 _ _).trans hk)
  have er : dot_S5000x128_S128x47_S5000x47_1_0_0_1_n_n.rhsIdx (ix2 p q) ((ValueIdx.contrEquiv1 dot_S5000x128_S128x47_S5000x47_1_0_0_1_n_n 128 rfl rfl).symm k) = ix2 k q := funext fun a => Fin.ext (by
    match a with
    | ⟨0, _⟩ => exact (rhs47_0 _ _).trans hk
    | ⟨1, _⟩ => exact rhs47_1 _ _)
  rw [el, er]

/-- The index a reduction over the second axis reads at row `p`, lane `k`. -/
theorem lift_eq (p : Fin 5000) (k : Fin 47) : reduces_S5000x47_S5000.lift (ix1 p) k = ix2 p k :=
  funext fun a => Fin.ext (by
    match a with
    | ⟨0, _⟩ => rfl
    | ⟨1, _⟩ => rfl)

/-- A row's maximum: the lane reduction from −∞ at row `p` is the fold of `max` over the row's 47 entries. -/
theorem rowMax_read (v : FVec Ideal S5000x47 .f32) (hφ : FKind.Formats .f32) (hacc : (0xFF800000#32 : BitVec 32) = 0xFF800000#32)
    (p : Fin 5000) :
    multiReduction .maximumf [1] S5000 v 0xFF800000#32 reduces_S5000x47_S5000 hφ hacc (ix1 p) = rowMax (fun k => v (ix2 p k)) := by
  refine (Ideal.multiReduction_maximumf_single v 0xFF800000#32 reduces_S5000x47_S5000 hφ hacc (ix1 p)).trans ?_
  unfold rowMax
  exact congrArg (fun f : Fin 47 → EReal => (Finset.univ : Finset (Fin 47)).fold max (Ideal.ofBits .f32 0xFF800000#32) f)
    (funext fun k => congrArg v (lift_eq p k))

/-- A row's sum: the lane reduction from zero at row `p` is the sum of the row's 47 entries. -/
theorem rowSum_read (v : FVec Ideal S5000x47 .f32) (hφ : FKind.Formats .f32) (hacc : (0x00000000#32 : BitVec 32) = 0x00000000#32)
    (p : Fin 5000) :
    multiReduction .add [1] S5000 v 0x00000000#32 reduces_S5000x47_S5000 hφ hacc (ix1 p) = ∑ k : Fin 47, v (ix2 p k) := by
  refine (Ideal.multiReduction_add_single v 0x00000000#32 reduces_S5000x47_S5000 hφ hacc (ix1 p)).trans ?_
  exact Finset.sum_congr rfl fun k _ => congrArg v (lift_eq p k)

/-- The logarithm of the soft maximum along the rows of a block, as the body spells it, at (p, q). -/
theorem lsm_apply (z : FVec Ideal S5000x47 .f32) (p : Fin 5000) (q : Fin 47) :
    subf (subf z (broadcastTo S5000x47 (shapeCast S5000x1 (multiReduction .maximumf [1] S5000 z 0xFF800000#32 reduces_S5000x47_S5000 (.inl rfl) rfl) shapeCasts_S5000_S5000x1) broadcasts_S5000x1_S5000x47))
      (broadcastTo S5000x47 (log (shapeCast S5000x1 (multiReduction .add [1] S5000 (exp (subf z (broadcastTo S5000x47 (shapeCast S5000x1 (multiReduction .maximumf [1] S5000 z 0xFF800000#32 reduces_S5000x47_S5000 (.inl rfl) rfl) shapeCasts_S5000_S5000x1) broadcasts_S5000x1_S5000x47))) 0x00000000#32 reduces_S5000x47_S5000 (.inl rfl) rfl) shapeCasts_S5000_S5000x1)) broadcasts_S5000x1_S5000x47)
      (ix2 p q)
      = logSoftmaxRow (fun j => z (ix2 p j)) q := by
  have hM : ∀ (p' : Fin 5000) (q' : Fin 47),
      broadcastTo S5000x47 (shapeCast S5000x1 (multiReduction .maximumf [1] S5000 z 0xFF800000#32 reduces_S5000x47_S5000 (.inl rfl) rfl) shapeCasts_S5000_S5000x1) broadcasts_S5000x1_S5000x47 (ix2 p' q')
        = rowMax (fun k => z (ix2 p' k)) := fun p' q' =>
    (LibColumn.broadcastTo_a1_ab_apply _ broadcasts_S5000x1_S5000x47 p' q').trans
      ((LibColumn.shapeCast_a_a1_apply _ shapeCasts_S5000_S5000x1 p' 0).trans (rowMax_read z (.inl rfl) rfl p'))
  unfold logSoftmaxRow
  show (z (ix2 p q) - _) - _ = _
  rw [hM p q]
  refine congrArg (fun e => (z (ix2 p q) - rowMax (fun k => z (ix2 p k))) - e) ?_
  refine (LibColumn.broadcastTo_a1_ab_apply _ broadcasts_S5000x1_S5000x47 p q).trans ?_
  show Ideal.log (shapeCast S5000x1 _ shapeCasts_S5000_S5000x1 (ix2 p (0 : Fin 1))) = _
  refine congrArg Ideal.log ?_
  refine (LibColumn.shapeCast_a_a1_apply _ shapeCasts_S5000_S5000x1 p 0).trans ?_
  refine (rowSum_read _ (.inl rfl) rfl p).trans ?_
  refine Finset.sum_congr rfl fun j _ => ?_
  show Ideal.exp (z (ix2 p j) - _) = _
  rw [hM p j]

/-- The last layer's body at (p, q). -/
theorem pay2_apply (x0 x1 : FVec Ideal S5000x128 .f32) (x2 x4 : FVec Ideal S128x47 .f32) (x3 : FVec Ideal S1x47 .f32)
    (p : Fin 5000) (q : Fin 47) :
    k2_pay1 (F := Ideal) x0 x1 x2 x4 x3 (ix2 p q)
      = logSoftmaxRow (fun j : Fin 47 => (∑ k : Fin 128, x0 (ix2 p k) * x2 (ix2 k j) + ∑ k : Fin 128, x1 (ix2 p k) * x4 (ix2 k j)) + x3 (ix2 (0 : Fin 1) j)) q := by
  unfold k2_pay1
  refine (lsm_apply _ p q).trans ?_
  refine congrArg (fun z : Fin 47 → EReal => logSoftmaxRow z q) (funext fun j => ?_)
  simp only [addf_apply, matmul47_apply, truncf_apply, shapeCast_self]
  rw [broadcastTo_1b_ab_apply]

end Cert.Sage.KPay

end
-- ==== Proof.KRegion2.lean ====
/-
  What region 2 of the kernel's program leaves in its output array, as one function of the arrays it finds.

  As in the two hidden layers the grid has 20 points and point `t` stages rows 5000·t … 5000·t + 4999 of the aggregated
  features and of the node features, with the whole of the 128 × 47 weight matrices and of the bias row, and writes back the
  same rows of the 100000 × 47 output. The logarithm of the soft maximum runs along a row, and a block holds whole rows
  (all 47 columns), so entry (p, q) of the block the body leaves is entry (5000·t + p, q) of the last layer's function of
  the whole arrays; the 20 row blocks tile the rows, so the output array ends as that function everywhere.
-/
import proofs.«173815_j78408922955889_1_alg».proof.Proof.Gen.KernelIdeal.Frame
import proofs.«173815_j78408922955889_1_alg».proof.Proof.PayLsm
import proofs.«173815_j78408922955889_1_alg».proof.Proof.Spec
import Idealize.ShloMosaic.Lib.Pipeline.Value

set_option maxRecDepth 16384

noncomputable section

namespace Cert.Sage.KRegion2

open Idealize.ShloMosaic Idealize.ShloMosaic.TcCoe Idealize.SL.Sem Idealize.ShloMosaic.ValueIdx
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The body's entry (p, q) of a block is entry `i` of the last layer's function of the whole arrays, when the staged
    row blocks hold along row `p` what the arrays hold along row `i 0`, the staged weights and bias are the whole
    arrays, and `i`'s column is `q`. -/
theorem body_eq (A H : (⟨2, ![100000, 128]⟩ : Shape).Idx → EReal) (Wl Wr : (⟨2, ![128, 47]⟩ : Shape).Idx → EReal)
    (b : (⟨2, ![1, 47]⟩ : Shape).Idx → EReal)
    (x0 x1 : FVec Ideal S5000x128 .f32) (x2 x4 : FVec Ideal S128x47 .f32) (x3 : FVec Ideal S1x47 .f32)
    (p : Fin 5000) (q : Fin 47) (i : (⟨2, ![100000, 47]⟩ : Shape).Idx)
    (h0 : ∀ k : Fin 128, x0 (ix2 p k) = A (ix2 (i 0) k))
    (h1 : ∀ k : Fin 128, x1 (ix2 p k) = H (ix2 (i 0) k))
    (h2 : ∀ (k : Fin 128) (j : Fin 47), x2 (ix2 k j) = Wl (ix2 k j))
    (h4 : ∀ (k : Fin 128) (j : Fin 47), x4 (ix2 k j) = Wr (ix2 k j))
    (h3 : ∀ j : Fin 47, x3 (ix2 (0 : Fin 1) j) = b (ix2 (0 : Fin 1) j))
    (hq : (i 1).val = q.val) :
    k2_pay1 (F := Ideal) x0 x1 x2 x4 x3 (ix2 p q) = logSoftmaxLayer A H Wl Wr b i := by
  rw [KPay.pay2_apply]
  unfold logSoftmaxLayer lin47
  simp only [h0, h1, h2, h4, h3]
  exact congrArg (logSoftmaxRow _) (Fin.ext hq.symm)

/-- The printed index maps over the grid: the row blocks move with the point, the weights and the bias stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point `t` writes back is block `t` of the last layer's function of the arrays as the region finds them. -/
theorem flushed_eq (c : Dev nD) (t : Fin cfg2.N) :
    (dat2 V c).flushed 5 t = ((cfg2.win 5).blk t).view.read (Elt Ideal)
      (logSoftmaxLayer (V c main_v52) (V c main_v40) (V c main_arg8) (V c main_arg10) (V c main_v53)) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x47) hz, View.ld_unit_zero (S := S1x47) hz]
  obtain ⟨e00, e01, e10, e11, e20, e21, e30, e31, e40, e41, e50, e51⟩ := idx_facts t
  funext j
  obtain ⟨p, q, rfl⟩ : ∃ (p : Fin 5000) (q : Fin 47), j = ix2 p q := ⟨j 0, j 1, eq_ix2 j⟩
  refine body_eq (V c main_v52) (V c main_v40) (V c main_arg8) (V c main_arg10) (V c main_v53)
    (iblk2 V c 0 t) (iblk2 V c 1 t) (iblk2 V c 2 t) (iblk2 V c 4 t) (iblk2 V c 3 t) p q
    (((cfg2.win 5).blk t).view.emb (ix2 p q)) ?_ ?_ ?_ ?_ ?_ ?_
  · intro k
    show V c main_v52 (((cfg2.win 0).blk t).view.emb (ix2 p k)) = V c main_v52 _
    refine congrArg (V c main_v52) (funext fun a => Fin.ext ?_)
    match a with
    | ⟨0, _⟩ => show win2_0.index t (0 : Fin 2) * 5000 + 1 * p.val = win2_5.index t (0 : Fin 2) * 5000 + 1 * p.val; omega
    | ⟨1, _⟩ => show win2_0.index t (1 : Fin 2) * 128 + 1 * k.val = k.val; omega
  · intro k
    show V c main_v40 (((cfg2.win 1).blk t).view.emb (ix2 p k)) = V c main_v40 _
    refine congrArg (V c main_v40) (funext fun a => Fin.ext ?_)
    match a with
    | ⟨0, _⟩ => show win2_1.index t (0 : Fin 2) * 5000 + 1 * p.val = win2_5.index t (0 : Fin 2) * 5000 + 1 * p.val; omega
    | ⟨1, _⟩ => show win2_1.index t (1 : Fin 2) * 128 + 1 * k.val = k.val; omega
  · intro k j
    show V c main_arg8 (((cfg2.win 2).blk t).view.emb (ix2 k j)) = V c main_arg8 _
    refine congrArg (V c main_arg8) (funext fun a => Fin.ext ?_)
    match a with
    | ⟨0, _⟩ => show win2_2.index t (0 : Fin 2) * 128 + 1 * k.val = k.val; omega
    | ⟨1, _⟩ => show win2_2.index t (1 : Fin 2) * 47 + 1 * j.val = j.val; omega
  · intro k j
    show V c main_arg10 (((cfg2.win 4).blk t).view.emb (ix2 k j)) = V c main_arg10 _
    refine congrArg (V c main_arg10) (funext fun a => Fin.ext ?_)
    match a with
    | ⟨0, _⟩ => show win2_4.index t (0 : Fin 2) * 128 + 1 * k.val = k.val; omega
    | ⟨1, _⟩ => show win2_4.index t (1 : Fin 2) * 47 + 1 * j.val = j.val; omega
  · intro j
    show V c main_v53 (((cfg2.win 3).blk t).view.emb (ix2 (0 : Fin 1) j)) = V c main_v53 _
    refine congrArg (V c main_v53) (funext fun a => Fin.ext ?_)
    match a with
    | ⟨0, _⟩ => show win2_3.index t (0 : Fin 2) * 1 + 1 * 0 = 0; omega
    | ⟨1, _⟩ => show win2_3.index t (1 : Fin 2) * 47 + 1 * j.val = j.val; omega
  · show win2_5.index t (1 : Fin 2) * 47 + 1 * q.val = q.val
    omega

/-- An index of the output array is in point `t`'s block iff each coordinate is in the block's range on its axis. -/
theorem mem_blk (t : Fin cfg2.N) (i : S100000x47.Idx) :
    i ∈ ((cfg2.win 5).blk t).view.set ↔ ∀ a : Fin 2, win2_5.index t a * S5000x47.size a ≤ (i a).val ∧ (i a).val < win2_5.index t a * S5000x47.size a + S5000x47.size a := by
  show i ∈ ((View.whole main_v54).slice (win2_5.rect t)).set ↔ _
  rw [View.set_slice_whole, Rect.mem_set_unit]
  exact Iff.rfl

/-- Every index of the output array lies in the block of the point its row falls in. -/
theorem cover (i : S100000x47.Idx) : ∃ t : Fin cfg2.N, (cfg2.win 5).flush t = true ∧ i ∈ ((cfg2.win 5).blk t).view.set := by
  have hi0 : (i 0).val < 100000 := (i 0).isLt
  have hi1 : (i 1).val < 47 := (i 1).isLt
  have hN : cfg2.N = 20 := N_2
  let t : Fin cfg2.N := ⟨(i 0).val / 5000, by rw [hN]; omega⟩
  obtain ⟨e00, e01, e10, e11, e20, e21, e30, e31, e40, e41, e50, e51⟩ := idx_facts t
  have ht : t.val = (i 0).val / 5000 := rfl
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 47 ≤ (i 1).val ∧ (i 1).val < win2_5.index t (1 : Fin 2) * 47 + 47; omega

/-- The output array after the region: the last layer's function of the arrays the region finds. -/
theorem arr_eq (c : Dev nD) :
    (dat2 V c).arrAt 5 cfg2.N
      = logSoftmaxLayer (V c main_v52) (V c main_v40) (V c main_arg8) (V c main_arg10) (V c main_v53) :=
  (dat2 V c).arrAt_eq_of_cover 5 _ (fun t _ => flushed_eq V c t) cover

end Cert.Sage.KRegion2

end
-- ==== Proof.RefLayers.lean ====
/-
  The reference's three layers are the layer functions of the specification.

  Read one entry at a time, the reference forms (∑ₖ A(r,k)·Wl(k,q) + b(q)) + ∑ₖ H(r,k)·Wr(k,q), where the specification
  adds the two sums first and the bias last: the same extended real, since addition there is commutative and associative.
  The hidden layers then clamp below at zero on both sides. The last layer's row maximum is taken by the reference as
  the larger of −∞ and the fold of `max` from −∞ over the row, which is that fold; its row sum starts from the zero
  word, which is 0; exponential and logarithm are the same functions of an extended real on both sides.
-/
import proofs.«173815_j78408922955889_1_alg».proof.Proof.RefRead
import proofs.«173815_j78408922955889_1_alg».proof.Proof.Spec
import Idealize.ShloMosaic.Lib.ValueIdx
import Idealize.ShloMosaic.PureOps.Ideal.Laws
import Idealize.ShloMosaic.PureOps.Reduce

set_option maxRecDepth 16384

noncomputable section

namespace Cert.Sage.RefLayers

open Idealize.ShloMosaic Idealize.ShloMosaic.ValueIdx Cert.ReferenceIdeal Cert.ReferenceIdeal.Gen Cert.ReferenceIdeal.ReadP Cert.Sage

/-- The bias added between the two sums, or after them. -/
theorem add_bias_comm (s1 s2 bb s1' s2' bb' : EReal) (h1 : s1 = s1') (h2 : s2 = s2') (hb : bb = bb') :
    (s1 + s2) + bb = (s1' + bb') + s2' := by
  subst h1 h2 hb; exact add_right_comm _ _ _

/-- The first hidden layer. -/
theorem layer0 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (b : (⟨2, ![1, 128]⟩ : Shape).Idx → EReal)
    (hb : ∀ q : Fin 128, b (ix2 (0 : Fin 1) q) = x3 (ix1 q)) :
    reluLayer (val_main_v24 (F := Ideal) x0 x1) x0 x2 x4 b = val_main_v31 (F := Ideal) x0 x1 x2 x3 x4 := by
  funext i
  rw [val_main_v31_apply, val_main_v30_apply, val_main_v28_apply, val_main_v25_apply, val_main_v29_apply,
    val_main_v27_apply, val_main_v26_apply, val_main_call0_v0_apply, val_main_call0_cst_apply]
  unfold reluLayer lin128
  refine congrArg (fun e : EReal => max e (Ideal.ofBits .f32 0x00000000#32)) (add_bias_comm _ _ _ _ _ _ ?_ ?_ ?_)
  · exact Finset.sum_congr rfl fun k _ => congrArg₂ (· * ·)
      (congrArg _ (funext fun a => by match a with | ⟨0, _⟩ => rfl | ⟨1, _⟩ => rfl))
      (congrArg x2 (funext fun a => by match a with | ⟨0, _⟩ => rfl | ⟨1, _⟩ => rfl))
  · exact Finset.sum_congr rfl fun k _ => congrArg₂ (· * ·)
      (congrArg x0 (funext fun a => by match a with | ⟨0, _⟩ => rfl | ⟨1, _⟩ => rfl))
      (congrArg x4 (funext fun a => by match a with | ⟨0, _⟩ => rfl | ⟨1, _⟩ => rfl))
  · exact (hb (i 1)).trans (congrArg x3 (funext fun a => by match a with | ⟨0, _⟩ => rfl))

/-- The second hidden layer. -/
theorem layer1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (b : (⟨2, ![1, 128]⟩ : Shape).Idx → EReal)
    (hb : ∀ q : Fin 128, b (ix2 (0 : Fin 1) q) = x6 (ix1 q)) :
    reluLayer (val_main_v43 (F := Ideal) x0 x1 x2 x3 x4) (val_main_v31 (F := Ideal) x0 x1 x2 x3 x4) x5 x7 b
      = val_main_v50 (F := Ideal) x0 x1 x2 x3 x4 x5 x6 x7 := by
  funext i
  rw [val_main_v50_apply, val_main_v49_apply, val_main_v47_apply, val_main_v44_apply, val_main_v48_apply,
    val_main_v46_apply, val_main_v45_apply, val_main_call1_v0_apply, val_main_call1_cst_apply]
  unfold reluLayer lin128
  refine congrArg (fun e : EReal => max e (Ideal.ofBits .f32 0x00000000#32)) (add_bias_comm _ _ _ _ _ _ ?_ ?_ ?_)
  · exact Finset.sum_congr rfl fun k _ => congrArg₂ (· * ·)
      (congrArg _ (funext fun a => by match a with | ⟨0, _⟩ => rfl | ⟨1, _⟩ => rfl))
      (congrArg x5 (funext fun a => by match a with | ⟨0, _⟩ => rfl | ⟨1, _⟩ => rfl))
  · exact Finset.sum_congr rfl fun k _ => congrArg₂ (· * ·)
      (congrArg _ (funext fun a => by match a with | ⟨0, _⟩ => rfl | ⟨1, _⟩ => rfl))
      (congrArg x7 (funext fun a => by match a with | ⟨0, _⟩ => rfl | ⟨1, _⟩ => rfl))
  · exact (hb (i 1)).trans (congrArg x6 (funext fun a => by match a with | ⟨0, _⟩ => rfl))

section Last

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128x47, .f32⟩ : BufTy).Contents (Elt Ideal)) (x9 : (⟨S47, .f32⟩ : BufTy).Contents (Elt Ideal)) (x10 : (⟨S128x47, .f32⟩ : BufTy).Contents (Elt Ideal)) (b : (⟨2, ![1, 47]⟩ : Shape).Idx → EReal)

/-- The last layer's affine part, entry (r, q). -/
theorem affine_eq (hb : ∀ q : Fin 47, b (ix2 (0 : Fin 1) q) = x9 (ix1 q)) (r : Fin 100000) (q : Fin 47) :
    val_main_v68 (F := Ideal) x0 x1 x2 x3 x4 x5 x6 x7 x8 x9 x10 (ix2 r q)
      = lin47 (val_main_v62 (F := Ideal) x0 x1 x2 x3 x4 x5 x6 x7) (val_main_v50 (F := Ideal) x0 x1 x2 x3 x4 x5 x6 x7) x8 x10 b r q := by
  rw [val_main_v68_apply, val_main_v66_apply, val_main_v63_apply, val_main_v67_apply, val_main_v65_apply, val_main_v64_apply]
  unfold lin47
  refine (add_bias_comm _ _ _ _ _ _ ?_ ?_ ?_).symm
  · exact Finset.sum_congr rfl fun k _ => congrArg₂ (· * ·)
      (congrArg _ (funext fun a => by match a with | ⟨0, _⟩ => rfl | ⟨1, _⟩ => rfl))
      (congrArg x8 (funext fun a => by match a with | ⟨0, _⟩ => rfl | ⟨1, _⟩ => rfl))
  · exact Finset.sum_congr rfl fun k _ => congrArg₂ (· * ·)
      (congrArg _ (funext fun a => by match a with | ⟨0, _⟩ => rfl | ⟨1, _⟩ => rfl))
      (congrArg x10 (funext fun a => by match a with | ⟨0, _⟩ => rfl | ⟨1, _⟩ => rfl))
  · exact (hb q).trans (congrArg x9 (funext fun a => by match a with | ⟨0, _⟩ => rfl))

/-- The index a reduction over the second axis of a 100000 × 47 array reads at row `j`, lane `k`: (j, k). -/
theorem lift_eq (h : S100000x47.Reduces [(1 : Fin S100000x47.rank)] S100000) (j : S100000.Idx) (k : Fin 47) :
    h.lift j k = idx_main_call2_v7 j k :=
  funext fun a => Fin.ext (by match a with | ⟨0, _⟩ => rfl | ⟨1, _⟩ => rfl)

/-- The larger of a value and a fold of `max` that starts from it is the fold. -/
theorem max_fold_self {ι : Type} (s : Finset ι) (a : EReal) (f : ι → EReal) : max a (s.fold max a f) = s.fold max a f :=
  max_eq_right ((Finset.le_fold_max a).2 (Or.inl le_rfl))

/-- A host reduction by `max` from −∞ over the second axis, at a result index `J` whose coordinate is `r`: the fold of
    `max` from −∞ over row `r`. -/
theorem rowReduce_var (y : (⟨S100000x47, .f32⟩ : BufTy).Contents (Elt Ideal)) (J : S100000.Idx) (r : Fin 100000)
    (hJ : (J 0).val = r.val) :
    Host.reduce (FloatOps.maximumf (F := Ideal) (φ := .f32)) y (val_main_call2_cst (F := Ideal)) reducesTo_S100000x47_S100000_d1 h_S_ J
      = rowMax (fun k => y (ix2 r k)) := by
  show Host.reduce (max : EReal → EReal → EReal) y (val_main_call2_cst (F := Ideal)) reducesTo_S100000x47_S100000_d1 h_S_ J = _
  refine (Host.reduce_eq_fold_single (α := EReal) (s := S100000x47) (t := S100000) (a := (1 : Fin S100000x47.rank)) (u := S_)
    (max : EReal → EReal → EReal) y (val_main_call2_cst (F := Ideal))
    reducesTo_S100000x47_S100000_d1 (by decide) h_S_ J).trans ?_
  unfold rowMax
  have hb : val_main_call2_cst (F := Ideal) (Shape.Idx.first h_S_) = Ideal.ofBits .f32 0xFF800000#32 := rfl
  rw [hb]
  refine Finset.fold_congr fun k _ => ?_
  refine (congrArg y (lift_eq _ J k)).trans (congrArg y (funext fun a => Fin.ext ?_))
  match a with
  | ⟨0, _⟩ => exact hJ
  | ⟨1, _⟩ => rfl

/-- The reference's maximum over a row, as the host reduction gives it: the fold of `max` from −∞ over the row. -/
theorem rowReduce_eq (r : Fin 100000) (q : Fin 47) :
    val_main_call2_v0 (F := Ideal) x0 x1 x2 x3 x4 x5 x6 x7 x8 x9 x10 (idx_main_call2_v3 (idx_main_call2_v4 (ix2 r q)))
      = rowMax (fun k => val_main_v68 (F := Ideal) x0 x1 x2 x3 x4 x5 x6 x7 x8 x9 x10 (ix2 r k)) := by
  unfold val_main_call2_v0
  exact rowReduce_var _ _ r rfl

/-- The row maximum the reference subtracts, at any entry of row `r`: the fold of `max` from −∞ over the row. -/
theorem shift_eq (r : Fin 100000) (q : Fin 47) :
    val_main_call2_v4 (F := Ideal) x0 x1 x2 x3 x4 x5 x6 x7 x8 x9 x10 (ix2 r q)
      = rowMax (fun k => val_main_v68 (F := Ideal) x0 x1 x2 x3 x4 x5 x6 x7 x8 x9 x10 (ix2 r k)) := by
  rw [val_main_call2_v4_apply, val_main_call2_v3_apply, val_main_call2_v2_apply, val_main_call2_v1_apply,
    val_main_call2_cst_0_apply, rowReduce_eq, Ideal.maximumf_def, Ideal.ofBits_def]
  unfold rowMax
  exact max_fold_self _ _ _

/-- The last layer. -/
theorem layer2 (hb : ∀ q : Fin 47, b (ix2 (0 : Fin 1) q) = x9 (ix1 q)) :
    logSoftmaxLayer (val_main_v62 (F := Ideal) x0 x1 x2 x3 x4 x5 x6 x7) (val_main_v50 (F := Ideal) x0 x1 x2 x3 x4 x5 x6 x7) x8 x10 b
      = val_main_v69 (F := Ideal) x0 x1 x2 x3 x4 x5 x6 x7 x8 x9 x10 := by
  funext i
  obtain ⟨r, q, rfl⟩ : ∃ (r : Fin 100000) (q : Fin 47), i = ix2 r q := ⟨i 0, i 1, eq_ix2 i⟩
  have hz : (fun k : Fin 47 => val_main_v68 (F := Ideal) x0 x1 x2 x3 x4 x5 x6 x7 x8 x9 x10 (ix2 r k))
      = lin47 (val_main_v62 (F := Ideal) x0 x1 x2 x3 x4 x5 x6 x7) (val_main_v50 (F := Ideal) x0 x1 x2 x3 x4 x5 x6 x7) x8 x10 b r :=
    funext fun k => affine_eq x0 x1 x2 x3 x4 x5 x6 x7 x8 x9 x10 b hb r k
  have h5 : ∀ q' : Fin 47, val_main_call2_v5 (F := Ideal) x0 x1 x2 x3 x4 x5 x6 x7 x8 x9 x10 (ix2 r q')
      = val_main_v68 (F := Ideal) x0 x1 x2 x3 x4 x5 x6 x7 x8 x9 x10 (ix2 r q') - rowMax (fun k => val_main_v68 (F := Ideal) x0 x1 x2 x3 x4 x5 x6 x7 x8 x9 x10 (ix2 r k)) := fun q' => by
    rw [val_main_call2_v5_apply, shift_eq, Ideal.subf_def]
  have h10 : val_main_call2_v10 (F := Ideal) x0 x1 x2 x3 x4 x5 x6 x7 x8 x9 x10 (ix2 r q)
      = Ideal.log (∑ j : Fin 47, Ideal.exp (val_main_v68 (F := Ideal) x0 x1 x2 x3 x4 x5 x6 x7 x8 x9 x10 (ix2 r j) - rowMax (fun k => val_main_v68 (F := Ideal) x0 x1 x2 x3 x4 x5 x6 x7 x8 x9 x10 (ix2 r k)))) := by
    rw [val_main_call2_v10_apply, val_main_call2_v9_apply, val_main_call2_v8_apply, val_main_call2_v7_apply, val_main_call2_cst_1_apply]
    rw [Ideal.hostUnary_log_def, Ideal.ofBits_def, Ideal.ofBits_zero_f32, zero_add]
    refine congrArg Ideal.log (Finset.sum_congr rfl fun j _ => ?_)
    rw [val_main_call2_v6_apply, Ideal.hostUnary_exp_def]
    refine congrArg Ideal.exp ((congrArg (val_main_call2_v5 (F := Ideal) x0 x1 x2 x3 x4 x5 x6 x7 x8 x9 x10)
      (funext fun a => Fin.ext (by match a with | ⟨0, _⟩ => rfl | ⟨1, _⟩ => rfl))).trans (h5 j))
  rw [val_main_v69_apply, h5 q, h10, Ideal.subf_def]
  unfold logSoftmaxLayer logSoftmaxRow
  rw [← hz]

end Last

end Cert.Sage.RefLayers

end
-- ==== Proof.KFold.lean ====
/-
  The kernel's result array, read through the program from the launch.

  @main is three stretches of host operations, each followed by a region. A stretch computes the aggregated features for
  the next region from the node features (gather along the edge sources, scatter-add at the edge targets, scale by the
  inverse degree), and reshapes the bias to a row; it is the same list of operations the reference applies, so the buffer
  it fills is the reference's stage of the same name applied to the same arrays. A region's output array is the layer's
  function of the arrays it finds, and by the reference's own layer that is the reference's next stage. Three rounds of
  this carry the launch contents to the result: the reference's last stage of the eleven arguments.
-/
import proofs.«173815_j78408922955889_1_alg».proof.Proof.Gen.KernelIdeal.Frame
import proofs.«173815_j78408922955889_1_alg».proof.Proof.KRegion0
import proofs.«173815_j78408922955889_1_alg».proof.Proof.KRegion1
import proofs.«173815_j78408922955889_1_alg».proof.Proof.KRegion2
import proofs.«173815_j78408922955889_1_alg».proof.Proof.RefLayers
import Idealize.ShloMosaic.Lib.StableHlo.Run
import Idealize.ShloMosaic.Lib.ValueLayout

set_option maxRecDepth 16384

noncomputable section

namespace Cert.Sage.KFold

open Idealize.ShloMosaic Idealize.ShloMosaic.TcCoe Idealize.SL.Sem Idealize.ShloMosaic.ValueIdx Idealize.ShloMosaic.StableHlo
open Cert.KernelIdeal Cert.KernelIdeal.Gen Cert.Sage Cert.ReferenceIdeal.ReadP

/-! ## The three stretches of host operations, from any contents `W` -/

section Stretches

variable (W : Valuation τ sig (Elt Ideal))

/-- After the first stretch the aggregated input features are the reference's stage of the features and the edges. -/
theorem hostOps0_v24 : after (hostOps0 (F := Ideal)) W (Proc.devRef .tc main_v24)
    = val_main_v24 (F := Ideal) (W (Proc.devRef .tc main_arg0)) (W (Proc.devRef .tc main_arg1)) := by
  after_results_simp <;> rfl
theorem hostOps0_v1 : after (hostOps0 (F := Ideal)) W (Proc.devRef .tc main_v1) = val_main_v1 (F := Ideal) (W (Proc.devRef .tc main_arg1)) := by
  after_results_simp <;> rfl
theorem hostOps0_v3 : after (hostOps0 (F := Ideal)) W (Proc.devRef .tc main_v3) = val_main_v3 (F := Ideal) (W (Proc.devRef .tc main_arg1)) := by
  after_results_simp <;> rfl
theorem hostOps0_v12 : after (hostOps0 (F := Ideal)) W (Proc.devRef .tc main_v12) = val_main_v12 (F := Ideal) (W (Proc.devRef .tc main_arg1)) := by
  after_results_simp <;> rfl
theorem hostOps0_v25 : after (hostOps0 (F := Ideal)) W (Proc.devRef .tc main_v25) = shapeCast _ (W (Proc.devRef .tc main_arg3)) shapeCasts_S128_S1x128 := by
  after_results_simp <;> rfl
theorem hostOps0_keep_main_arg0 : after (hostOps0 (F := Ideal)) W (Proc.devRef .tc main_arg0) = W (Proc.devRef .tc main_arg0) := by
  after_results_simp <;> rfl
theorem hostOps0_keep_main_arg2 : after (hostOps0 (F := Ideal)) W (Proc.devRef .tc main_arg2) = W (Proc.devRef .tc main_arg2) := by
  after_results_simp <;> rfl
theorem hostOps0_keep_main_arg4 : after (hostOps0 (F := Ideal)) W (Proc.devRef .tc main_arg4) = W (Proc.devRef .tc main_arg4) := by
  after_results_simp <;> rfl
theorem hostOps0_keep_main_arg5 : after (hostOps0 (F := Ideal)) W (Proc.devRef .tc main_arg5) = W (Proc.devRef .tc main_arg5) := by
  after_results_simp <;> rfl
theorem hostOps0_keep_main_arg6 : after (hostOps0 (F := Ideal)) W (Proc.devRef .tc main_arg6) = W (Proc.devRef .tc main_arg6) := by
  after_results_simp <;> rfl
theorem hostOps0_keep_main_arg7 : after (hostOps0 (F := Ideal)) W (Proc.devRef .tc main_arg7) = W (Proc.devRef .tc main_arg7) := by
  after_results_simp <;> rfl
theorem hostOps0_keep_main_arg8 : after (hostOps0 (F := Ideal)) W (Proc.devRef .tc main_arg8) = W (Proc.devRef .tc main_arg8) := by
  after_results_simp <;> rfl
theorem hostOps0_keep_main_arg9 : after (hostOps0 (F := Ideal)) W (Proc.devRef .tc main_arg9) = W (Proc.devRef .tc main_arg9) := by
  after_results_simp <;> rfl
theorem hostOps0_keep_main_arg10 : after (hostOps0 (F := Ideal)) W (Proc.devRef .tc main_arg10) = W (Proc.devRef .tc main_arg10) := by
  after_results_simp <;> rfl

/-- After the second stretch the aggregated features of the first hidden layer are the reference's stage, given that
    the stretch finds the first hidden layer's output and the edge arrays at the reference's stages. -/
theorem hostOps1_v38 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal))
    (h26 : W (Proc.devRef .tc main_v26) = val_main_v31 (F := Ideal) x0 x1 x2 x3 x4)
    (h1 : W (Proc.devRef .tc main_v1) = val_main_v1 (F := Ideal) x1) (h3 : W (Proc.devRef .tc main_v3) = val_main_v3 (F := Ideal) x1)
    (h12 : W (Proc.devRef .tc main_v12) = val_main_v12 (F := Ideal) x1) :
    after (hostOps1 (F := Ideal)) W (Proc.devRef .tc main_v38) = val_main_v43 (F := Ideal) x0 x1 x2 x3 x4 := by
  after_results_simp
  rw [h26, h1, h3, h12]
  rfl
theorem hostOps1_v39 : after (hostOps1 (F := Ideal)) W (Proc.devRef .tc main_v39) = shapeCast _ (W (Proc.devRef .tc main_arg6)) shapeCasts_S128_S1x128 := by
  after_results_simp <;> rfl
theorem hostOps1_keep_main_v26 : after (hostOps1 (F := Ideal)) W (Proc.devRef .tc main_v26) = W (Proc.devRef .tc main_v26) := by
  after_results_simp <;> rfl
theorem hostOps1_keep_main_v1 : after (hostOps1 (F := Ideal)) W (Proc.devRef .tc main_v1) = W (Proc.devRef .tc main_v1) := by
  after_results_simp <;> rfl
theorem hostOps1_keep_main_v3 : after (hostOps1 (F := Ideal)) W (Proc.devRef .tc main_v3) = W (Proc.devRef .tc main_v3) := by
  after_results_simp <;> rfl
theorem hostOps1_keep_main_v12 : after (hostOps1 (F := Ideal)) W (Proc.devRef .tc main_v12) = W (Proc.devRef .tc main_v12) := by
  after_results_simp <;> rfl
theorem hostOps1_keep_main_arg5 : after (hostOps1 (F := Ideal)) W (Proc.devRef .tc main_arg5) = W (Proc.devRef .tc main_arg5) := by
  after_results_simp <;> rfl
theorem hostOps1_keep_main_arg7 : after (hostOps1 (F := Ideal)) W (Proc.devRef .tc main_arg7) = W (Proc.devRef .tc main_arg7) := by
  after_results_simp <;> rfl
theorem hostOps1_keep_main_arg8 : after (hostOps1 (F := Ideal)) W (Proc.devRef .tc main_arg8) = W (Proc.devRef .tc main_arg8) := by
  after_results_simp <;> rfl
theorem hostOps1_keep_main_arg9 : after (hostOps1 (F := Ideal)) W (Proc.devRef .tc main_arg9) = W (Proc.devRef .tc main_arg9) := by
  after_results_simp <;> rfl
theorem hostOps1_keep_main_arg10 : after (hostOps1 (F := Ideal)) W (Proc.devRef .tc main_arg10) = W (Proc.devRef .tc main_arg10) := by
  after_results_simp <;> rfl

/-- After the third stretch likewise, for the second hidden layer. -/
theorem hostOps2_v52 (x0 : (⟨Cert.ReferenceIdeal.S100000x128, .f32⟩ : BufTy).Contents (Elt Ideal)) (x1 : (⟨Cert.ReferenceIdeal.S2x1600000, .i32⟩ : BufTy).Contents (Elt Ideal)) (x2 : (⟨Cert.ReferenceIdeal.S128x128, .f32⟩ : BufTy).Contents (Elt Ideal)) (x3 : (⟨Cert.ReferenceIdeal.S128, .f32⟩ : BufTy).Contents (Elt Ideal)) (x4 : (⟨Cert.ReferenceIdeal.S128x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (h40 : W (Proc.devRef .tc main_v40) = val_main_v50 (F := Ideal) x0 x1 x2 x3 x4 x5 x6 x7)
    (h1 : W (Proc.devRef .tc main_v1) = val_main_v1 (F := Ideal) x1) (h3 : W (Proc.devRef .tc main_v3) = val_main_v3 (F := Ideal) x1)
    (h12 : W (Proc.devRef .tc main_v12) = val_main_v12 (F := Ideal) x1) :
    after (hostOps2 (F := Ideal)) W (Proc.devRef .tc main_v52) = val_main_v62 (F := Ideal) x0 x1 x2 x3 x4 x5 x6 x7 := by
  after_results_simp
  rw [h40, h1, h3, h12]
  rfl
theorem hostOps2_v53 : after (hostOps2 (F := Ideal)) W (Proc.devRef .tc main_v53) = shapeCast _ (W (Proc.devRef .tc main_arg9)) shapeCasts_S47_S1x47 := by
  after_results_simp <;> rfl
theorem hostOps2_keep_main_v40 : after (hostOps2 (F := Ideal)) W (Proc.devRef .tc main_v40) = W (Proc.devRef .tc main_v40) := by
  after_results_simp <;> rfl
theorem hostOps2_keep_main_arg8 : after (hostOps2 (F := Ideal)) W (Proc.devRef .tc main_arg8) = W (Proc.devRef .tc main_arg8) := by
  after_results_simp <;> rfl
theorem hostOps2_keep_main_arg10 : after (hostOps2 (F := Ideal)) W (Proc.devRef .tc main_arg10) = W (Proc.devRef .tc main_arg10) := by
  after_results_simp <;> rfl

end Stretches

/-! ## The fold of the segment boundaries -/

variable (m : (ℓ : Loc nD τ sig) → Buf (Elt Ideal) ℓ) (ρ : Dev nD → PrngReg)

/-- The first hidden layer's output, after region 0. -/
theorem h1_eq (c : Dev nD) : W2 m ρ c (Proc.devRef .tc main_v26) = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have e : W2 m ρ c (Proc.devRef .tc main_v26) = (dat0 (V1 m ρ) c).arrAt 5 cfg0.N := W2_arr m ρ c 5
  have e24 : V1 m ρ c main_v24 = val_main_v24 (F := Ideal) (m ((c : Thread nD τ).loc main_arg0)) (m ((c : Thread nD τ).loc main_arg1)) := hostOps0_v24 (W0 m ρ c)
  have e0 : V1 m ρ c main_arg0 = (m ((c : Thread nD τ).loc main_arg0)) := hostOps0_keep_main_arg0 (W0 m ρ c)
  have e2 : V1 m ρ c main_arg2 = (m ((c : Thread nD τ).loc main_arg2)) := hostOps0_keep_main_arg2 (W0 m ρ c)
  have e4 : V1 m ρ c main_arg4 = (m ((c : Thread nD τ).loc main_arg4)) := hostOps0_keep_main_arg4 (W0 m ρ c)
  have e25 : V1 m ρ c main_v25 = shapeCast _ (m ((c : Thread nD τ).loc main_arg3)) shapeCasts_S128_S1x128 := hostOps0_v25 (W0 m ρ c)
  rw [e, KRegion0.arr_eq (V1 m ρ) c, e24, e0, e2, e4, e25]
  exact RefLayers.layer0 _ _ _ _ _ _ (fun q => shapeCast_a_1a_apply _ _ 0 q)

/-- What the later stretches find of the edge arrays: the first stretch's, no region or later stretch writing them. -/
theorem W2_v1 (c : Dev nD) : W2 m ρ c (Proc.devRef .tc main_v1) = val_main_v1 (F := Ideal) (m ((c : Thread nD τ).loc main_arg1)) :=
  (W2_of_ne m ρ c main_v1 (by decide)).trans (hostOps0_v1 (W0 m ρ c))
theorem W2_v3 (c : Dev nD) : W2 m ρ c (Proc.devRef .tc main_v3) = val_main_v3 (F := Ideal) (m ((c : Thread nD τ).loc main_arg1)) :=
  (W2_of_ne m ρ c main_v3 (by decide)).trans (hostOps0_v3 (W0 m ρ c))
theorem W2_v12 (c : Dev nD) : W2 m ρ c (Proc.devRef .tc main_v12) = val_main_v12 (F := Ideal) (m ((c : Thread nD τ).loc main_arg1)) :=
  (W2_of_ne m ρ c main_v12 (by decide)).trans (hostOps0_v12 (W0 m ρ c))
theorem W2_arg (c : Dev nD) (b : Ref sig .tc) (hb : ∀ w, Pipeline.arrRef spec0 w ≠ b)
    (hk : after (hostOps0 (F := Ideal)) (W0 m ρ c) (Proc.devRef .tc b) = W0 m ρ c (Proc.devRef .tc b)) :
    W2 m ρ c (Proc.devRef .tc b) = W0 m ρ c (Proc.devRef .tc b) :=
  (W2_of_ne m ρ c b hb).trans hk

/-- The second hidden layer's output, after region 1. -/
theorem h2_eq (c : Dev nD) : W4 m ρ c (Proc.devRef .tc main_v40) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : W4 m ρ c (Proc.devRef .tc main_v40) = (dat1 (V3 m ρ) c).arrAt 5 cfg1.N := W4_arr m ρ c 5
  have e38 : V3 m ρ c main_v38 = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
    hostOps1_v38 (W2 m ρ c) _ _ _ _ _ (h1_eq m ρ c) (W2_v1 m ρ c) (W2_v3 m ρ c) (W2_v12 m ρ c)
  have e26 : V3 m ρ c main_v26 = val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (hostOps1_keep_main_v26 (W2 m ρ c)).trans (h1_eq m ρ c)
  have e5 : V3 m ρ c main_arg5 = (m ((c : Thread nD τ).loc main_arg5)) :=
    (hostOps1_keep_main_arg5 (W2 m ρ c)).trans (W2_arg m ρ c main_arg5 (by decide) (hostOps0_keep_main_arg5 (W0 m ρ c)))
  have e7 : V3 m ρ c main_arg7 = (m ((c : Thread nD τ).loc main_arg7)) :=
    (hostOps1_keep_main_arg7 (W2 m ρ c)).trans (W2_arg m ρ c main_arg7 (by decide) (hostOps0_keep_main_arg7 (W0 m ρ c)))
  have e6 : W2 m ρ c (Proc.devRef .tc main_arg6) = (m ((c : Thread nD τ).loc main_arg6)) := W2_arg m ρ c main_arg6 (by decide) (hostOps0_keep_main_arg6 (W0 m ρ c))
  have e39 : V3 m ρ c main_v39 = shapeCast _ (m ((c : Thread nD τ).loc main_arg6)) shapeCasts_S128_S1x128 := (hostOps1_v39 (W2 m ρ c)).trans (by rw [e6])
  rw [e, KRegion1.arr_eq (V3 m ρ) c, e38, e26, e5, e7, e39]
  exact RefLayers.layer1 _ _ _ _ _ _ _ _ _ (fun q => shapeCast_a_1a_apply _ _ 0 q)

theorem W4_of_W2 (c : Dev nD) (b : Ref sig .tc) (hb : ∀ w, Pipeline.arrRef spec1 w ≠ b)
    (hk : after (hostOps1 (F := Ideal)) (W2 m ρ c) (Proc.devRef .tc b) = W2 m ρ c (Proc.devRef .tc b)) :
    W4 m ρ c (Proc.devRef .tc b) = W2 m ρ c (Proc.devRef .tc b) :=
  (W4_of_ne m ρ c b hb).trans hk

/-- The result array, after region 2: the reference's last stage of the eleven arguments. -/
theorem result_eq (c : Dev nD) : W6 m ρ c (Proc.devRef .tc main_v54) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e : W6 m ρ c (Proc.devRef .tc main_v54) = (dat2 (V5 m ρ) c).arrAt 5 cfg2.N := W6_arr m ρ c 5
  have k1 : W4 m ρ c (Proc.devRef .tc main_v1) = val_main_v1 (F := Ideal) (m ((c : Thread nD τ).loc main_arg1)) :=
    (W4_of_W2 m ρ c main_v1 (by decide) (hostOps1_keep_main_v1 (W2 m ρ c))).trans (W2_v1 m ρ c)
  have k3 : W4 m ρ c (Proc.devRef .tc main_v3) = val_main_v3 (F := Ideal) (m ((c : Thread nD τ).loc main_arg1)) :=
    (W4_of_W2 m ρ c main_v3 (by decide) (hostOps1_keep_main_v3 (W2 m ρ c))).trans (W2_v3 m ρ c)
  have k12 : W4 m ρ c (Proc.devRef .tc main_v12) = val_main_v12 (F := Ideal) (m ((c : Thread nD τ).loc main_arg1)) :=
    (W4_of_W2 m ρ c main_v12 (by decide) (hostOps1_keep_main_v12 (W2 m ρ c))).trans (W2_v12 m ρ c)
  have e52 : V5 m ρ c main_v52 = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
    hostOps2_v52 (W4 m ρ c) _ _ _ _ _ _ _ _ (h2_eq m ρ c) k1 k3 k12
  have e40 : V5 m ρ c main_v40 = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := (hostOps2_keep_main_v40 (W4 m ρ c)).trans (h2_eq m ρ c)
  have a8 : W4 m ρ c (Proc.devRef .tc main_arg8) = (m ((c : Thread nD τ).loc main_arg8)) :=
    (W4_of_W2 m ρ c main_arg8 (by decide) (hostOps1_keep_main_arg8 (W2 m ρ c))).trans
      (W2_arg m ρ c main_arg8 (by decide) (hostOps0_keep_main_arg8 (W0 m ρ c)))
  have a9 : W4 m ρ c (Proc.devRef .tc main_arg9) = (m ((c : Thread nD τ).loc main_arg9)) :=
    (W4_of_W2 m ρ c main_arg9 (by decide) (hostOps1_keep_main_arg9 (W2 m ρ c))).trans
      (W2_arg m ρ c main_arg9 (by decide) (hostOps0_keep_main_arg9 (W0 m ρ c)))
  have a10 : W4 m ρ c (Proc.devRef .tc main_arg10) = (m ((c : Thread nD τ).loc main_arg10)) :=
    (W4_of_W2 m ρ c main_arg10 (by decide) (hostOps1_keep_main_arg10 (W2 m ρ c))).trans
      (W2_arg m ρ c main_arg10 (by decide) (hostOps0_keep_main_arg10 (W0 m ρ c)))
  have e8 : V5 m ρ c main_arg8 = (m ((c : Thread nD τ).loc main_arg8)) := (hostOps2_keep_main_arg8 (W4 m ρ c)).trans a8
  have e10 : V5 m ρ c main_arg10 = (m ((c : Thread nD τ).loc main_arg10)) := (hostOps2_keep_main_arg10 (W4 m ρ c)).trans a10
  have e53 : V5 m ρ c main_v53 = shapeCast _ (m ((c : Thread nD τ).loc main_arg9)) shapeCasts_S47_S1x47 := (hostOps2_v53 (W4 m ρ c)).trans (by rw [a9])
  rw [e, KRegion2.arr_eq (V5 m ρ) c, e52, e40, e8, e10, e53]
  exact RefLayers.layer2 _ _ _ _ _ _ _ _ _ _ _ _ (fun q => shapeCast_a_1a_apply _ _ 0 q)

end Cert.Sage.KFold

end
-- ==== Proof.RefValue.lean ====
/-
  The reference's result, read through its operations from the launch.

  The reference is one list of host operations. Cut after each hidden layer's clamp, it falls into three stretches: each
  reads the node features the stretch before left (and the edge arrays the first stretch prepared: the edge sources and
  targets and the inverse degrees) and leaves the next layer's output; nothing writes an argument. Read stretch by
  stretch, with what a stretch finds named by the stage it is, the result is the last stage of the eleven arguments —
  the earlier layers' outputs are never written out again inside the later ones.
-/
import proofs.«173815_j78408922955889_1_alg».proof.Proof.RefRead
import Idealize.ShloMosaic.Lib.StableHlo.Run

set_option maxRecDepth 16384

noncomputable section

namespace Cert.Sage.RefValue

open Idealize.ShloMosaic Idealize.ShloMosaic.TcCoe Idealize.SL.Sem Idealize.ShloMosaic.StableHlo
open Cert.ReferenceIdeal Cert.ReferenceIdeal.Gen Cert.ReferenceIdeal.ValueP Cert.ReferenceIdeal.ReadP

/-- The contents after two lists of operations in a row. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Contents carried to a typed reference's buffer and back are the contents. -/
theorem ofBuf_toBuf {sig : RefSig} {T : BufTy} {Val : EltTy → Type} (x : TRef sig T) (v : T.Contents Val) :
    x.ofBuf (x.toBuf v) = v := by
  obtain ⟨r, h, _, _⟩ := x
  subst h
  rfl

variable {F : FTy → Type} [FloatOps F]

/-- The operations up to the first hidden layer's output. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_cst (constant S_ .f32 0x3F800000#32),
    unary main_cst main_v4 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S1600000x1 ![0] bcast_S1600000_S1600000x1_0 : (⟨S1600000, .i32⟩ : BufTy).Contents (Elt F) → (⟨S1600000x1, .i32⟩ : BufTy).Contents (Elt F)),
    ternary main_v5 main_v6 main_v4 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (maximumf : (⟨S100000, .f32⟩ : BufTy).Contents (Elt F) → (⟨S100000, .f32⟩ : BufTy).Contents (Elt F) → (⟨S100000, .f32⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v10 main_v9 main_v11 (Host.divf : (⟨S100000, .f32⟩ : BufTy).Contents (Elt F) → (⟨S100000, .f32⟩ : BufTy).Contents (Elt F) → (⟨S100000, .f32⟩ : BufTy).Contents (Elt F)),
    unary main_v11 main_v12 (broadcastInDim S100000x1 ![0] bcast_S100000_S100000x1_0 : (⟨S100000, .f32⟩ : BufTy).Contents (Elt F) → (⟨S100000x1, .f32⟩ : BufTy).Contents (Elt F)),
    nullary main_c (constantI S_ 32 0#32),
    unary main_c main_v13 (broadcastInDim S1600000 ![] bcast_S_S1600000 : (⟨S_, .i32⟩ : BufTy).Contents (Elt F) → (⟨S1600000, .i32⟩ : BufTy).Contents (Elt F)),
    binary main_v1 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v15 (broadcastInDim S1600000 ![] bcast_S_S1600000 : (⟨S_, .i32⟩ : BufTy).Contents (Elt F) → (⟨S1600000, .i32⟩ : BufTy).Contents (Elt F)),
    binary main_v1 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_v1 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_arg0 main_v18 main_v19 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_4 (constant S_ .f32 0x00000000#32),
    unary main_cst_4 main_v20 (broadcastInDim S100000x128 ![] bcast_S_S100000x128 : (⟨S_, .f32⟩ : BufTy).Contents (Elt F) → (⟨S100000x128, .f32⟩ : BufTy).Contents (Elt F)),
    unary main_v3 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v23 (broadcastInDim S100000x128 ![0, 1] bcast_S100000x1_S100000x128_0_1 : (⟨S100000x1, .f32⟩ : BufTy).Contents (Elt F) → (⟨S100000x128, .f32⟩ : BufTy).Contents (Elt F)),
    binary main_v22 main_v23 main_v24 (mulf : (⟨S100000x128, .f32⟩ : BufTy).Contents (Elt F) → (⟨S100000x128, .f32⟩ : BufTy).Contents (Elt F) → (⟨S100000x128, .f32⟩ : BufTy).Contents (Elt F)),
    binary main_v24 main_arg2 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)),
    binary main_arg0 main_arg4 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v28 main_v29 main_v30 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v30) (TRef.of (T := ⟨S100000x128, .f32⟩) main_call0_v0) (TRef.of (T := ⟨S100000x128, .f32⟩) main_v31) maximumf ]

/-- The operations from there up to the second hidden layer's output. -/
abbrev opsB : List (HloOp τ sig (Elt F)) :=
  [ nullary main_c_5 (constantI S_ 32 0#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v34 (broadcastInDim S1600000 ![] bcast_S_S1600000 : (⟨S_, .i32⟩ : BufTy).Contents (Elt F) → (⟨S1600000, .i32⟩ : BufTy).Contents (Elt F)),
    binary main_v1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v39 (broadcastInDim S100000x128 ![] bcast_S_S100000x128 : (⟨S_, .f32⟩ : BufTy).Contents (Elt F) → (⟨S100000x128, .f32⟩ : BufTy).Contents (Elt F)),
    unary main_v3 main_v40 (broadcastInDim S1600000x1 ![0] bcast_S1600000_S1600000x1_0 : (⟨S1600000, .i32⟩ : BufTy).Contents (Elt F) → (⟨S1600000x1, .i32⟩ : BufTy).Contents (Elt F)),
    ternary main_v39 main_v40 main_v38 main_v41 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v42 (broadcastInDim S100000x128 ![0, 1] bcast_S100000x1_S100000x128_0_1 : (⟨S100000x1, .f32⟩ : BufTy).Contents (Elt F) → (⟨S100000x128, .f32⟩ : BufTy).Contents (Elt F)),
    binary main_v41 main_v42 main_v43 (mulf : (⟨S100000x128, .f32⟩ : BufTy).Contents (Elt F) → (⟨S100000x128, .f32⟩ : BufTy).Contents (Elt F) → (⟨S100000x128, .f32⟩ : BufTy).Contents (Elt F)),
    binary main_v43 main_arg5 main_v44 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    binary main_v31 main_arg7 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v47 main_v48 main_v49 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v49) (TRef.of (T := ⟨S100000x128, .f32⟩) main_call1_v0) (TRef.of (T := ⟨S100000x128, .f32⟩) main_v50) maximumf ]

/-- From there up to the last layer's affine part. -/
abbrev opsC : List (HloOp τ sig (Elt F)) :=
  [ nullary main_c_8 (constantI S_ 32 0#32),
    unary main_c_8 main_v51 (broadcastInDim S1600000 ![] bcast_S_S1600000 : (⟨S_, .i32⟩ : BufTy).Contents (Elt F) → (⟨S1600000, .i32⟩ : BufTy).Contents (Elt F)),
    binary main_v1 main_v51 main_v52 (cmpi .slt : (⟨S1600000, .i32⟩ : BufTy).Contents (Elt F) → (⟨S1600000, .i32⟩ : BufTy).Contents (Elt F) → (⟨S1600000, .i1⟩ : BufTy).Contents (Elt F)),
    nullary main_c_9 (constantI S_ 32 100000#32),
    unary main_c_9 main_v53 (broadcastInDim S1600000 ![] bcast_S_S1600000 : (⟨S_, .i32⟩ : BufTy).Contents (Elt F) → (⟨S1600000, .i32⟩ : BufTy).Contents (Elt F)),
    binary main_v1 main_v53 main_v54 (addi : (⟨S1600000, .i32⟩ : BufTy).Contents (Elt F) → (⟨S1600000, .i32⟩ : BufTy).Contents (Elt F) → (⟨S1600000, .i32⟩ : BufTy).Contents (Elt F)),
    ternary main_v52 main_v54 main_v1 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v55 main_v56 (broadcastInDim S1600000x1 ![0] bcast_S1600000_S1600000x1_0 : (⟨S1600000, .i32⟩ : BufTy).Contents (Elt F) → (⟨S1600000x1, .i32⟩ : BufTy).Contents (Elt F)),
    binary main_v50 main_v56 main_v57 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_10 (constant S_ .f32 0x00000000#32),
    unary main_cst_10 main_v58 (broadcastInDim S100000x128 ![] bcast_S_S100000x128 : (⟨S_, .f32⟩ : BufTy).Contents (Elt F) → (⟨S100000x128, .f32⟩ : BufTy).Contents (Elt F)),
    unary main_v3 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v61 (broadcastInDim S100000x128 ![0, 1] bcast_S100000x1_S100000x128_0_1 : (⟨S100000x1, .f32⟩ : BufTy).Contents (Elt F) → (⟨S100000x128, .f32⟩ : BufTy).Contents (Elt F)),
    binary main_v60 main_v61 main_v62 (mulf : (⟨S100000x128, .f32⟩ : BufTy).Contents (Elt F) → (⟨S100000x128, .f32⟩ : BufTy).Contents (Elt F) → (⟨S100000x128, .f32⟩ : BufTy).Contents (Elt F)),
    binary main_v62 main_arg8 main_v63 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    unary main_arg9 main_v64 (broadcastInDim S1x47 ![1] bcast_S47_S1x47_1 : (⟨S47, .f32⟩ : BufTy).Contents (Elt F) → (⟨S1x47, .f32⟩ : BufTy).Contents (Elt F)),
    unary main_v64 main_v65 (broadcastInDim S100000x47 ![0, 1] bcast_S1x47_S100000x47_0_1 : (⟨S1x47, .f32⟩ : BufTy).Contents (Elt F) → (⟨S100000x47, .f32⟩ : BufTy).Contents (Elt F)),
    binary main_v63 main_v65 main_v66 (addf : (⟨S100000x47, .f32⟩ : BufTy).Contents (Elt F) → (⟨S100000x47, .f32⟩ : BufTy).Contents (Elt F) → (⟨S100000x47, .f32⟩ : BufTy).Contents (Elt F)),
    binary main_v50 main_arg10 main_v67 ((fun l r => Host.dotGeneral dot_S100000x128_S128x47_S100000x47_1_0_0_1_n_n none l r) : (⟨S100000x128, .f32⟩ : BufTy).Contents (Elt F) → (⟨S128x47, .f32⟩ : BufTy).Contents (Elt F) → (⟨S100000x47, .f32⟩ : BufTy).Contents (Elt F)),
    binary main_v66 main_v67 main_v68 (addf : (⟨S100000x47, .f32⟩ : BufTy).Contents (Elt F) → (⟨S100000x47, .f32⟩ : BufTy).Contents (Elt F) → (⟨S100000x47, .f32⟩ : BufTy).Contents (Elt F)) ]

/-- The rest: the logarithm of the soft maximum along the rows. -/
abbrev opsD : List (HloOp τ sig (Elt F)) :=
  [ TRef.nullary (TRef.of (T := ⟨S_, .f32⟩) main_call2_cst) (constant S_ .f32 0xFF800000#32),
    TRef.binary (TRef.of (T := ⟨S100000x47, .f32⟩) main_v68) (TRef.of (T := ⟨S_, .f32⟩) main_call2_cst) (TRef.of (T := ⟨S100000, .f32⟩) main_call2_v0) (fun x v => Host.reduce FloatOps.maximumf x v reducesTo_S100000x47_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x47, .f32⟩) main_call2_v4) (broadcastInDim S100000x47 ![0, 1] bcast_S100000x1_S100000x47_0_1),
    TRef.binary (TRef.of (T := ⟨S100000x47, .f32⟩) main_v68) (TRef.of (T := ⟨S100000x47, .f32⟩) main_call2_v4) (TRef.of (T := ⟨S100000x47, .f32⟩) main_call2_v5) subf,
    TRef.unary (TRef.of (T := ⟨S100000x47, .f32⟩) main_call2_v5) (TRef.of (T := ⟨S100000x47, .f32⟩) main_call2_v6) Host.exp,
    TRef.nullary (TRef.of (T := ⟨S_, .f32⟩) main_call2_cst_1) (constant S_ .f32 0x00000000#32),
    TRef.binary (TRef.of (T := ⟨S100000x47, .f32⟩) main_call2_v6) (TRef.of (T := ⟨S_, .f32⟩) main_call2_cst_1) (TRef.of (T := ⟨S100000, .f32⟩) main_call2_v7) (fun x v => Host.reduceAdd x v reducesTo_S100000x47_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x47, .f32⟩) main_call2_v10) (broadcastInDim S100000x47 ![0, 1] bcast_S100000x1_S100000x47_0_1),
    TRef.binary (TRef.of (T := ⟨S100000x47, .f32⟩) main_call2_v5) (TRef.of (T := ⟨S100000x47, .f32⟩) main_call2_v10) (TRef.of (T := ⟨S100000x47, .f32⟩) main_v69) subf ]

set_option maxHeartbeats 4000000 in
theorem ops_split : (ops : List (HloOp τ sig (Elt F))) = opsA ++ (opsB ++ (opsC ++ opsD)) := rfl

section Stretches

variable (W : Valuation τ sig (Elt F))

theorem opsA_v31 : after (opsA (F := F)) W (Proc.devRef .tc main_v31)
    = val_main_v31 (F := F) (W (Proc.devRef .tc main_arg0)) (W (Proc.devRef .tc main_arg1)) (W (Proc.devRef .tc main_arg2)) (W (Proc.devRef .tc main_arg3)) (W (Proc.devRef .tc main_arg4)) := by
  after_results_simp <;> rfl
theorem opsA_v1 : after (opsA (F := F)) W (Proc.devRef .tc main_v1) = val_main_v1 (F := F) (W (Proc.devRef .tc main_arg1)) := by
  after_results_simp <;> rfl
theorem opsA_v3 : after (opsA (F := F)) W (Proc.devRef .tc main_v3) = val_main_v3 (F := F) (W (Proc.devRef .tc main_arg1)) := by
  after_results_simp <;> rfl
theorem opsA_v12 : after (opsA (F := F)) W (Proc.devRef .tc main_v12) = val_main_v12 (F := F) (W (Proc.devRef .tc main_arg1)) := by
  after_results_simp <;> rfl
theorem opsA_keep_main_arg0 : after (opsA (F := F)) W (Proc.devRef .tc main_arg0) = W (Proc.devRef .tc main_arg0) := by
  after_results_simp <;> rfl
theorem opsA_keep_main_arg1 : after (opsA (F := F)) W (Proc.devRef .tc main_arg1) = W (Proc.devRef .tc main_arg1) := by
  after_results_simp <;> rfl
theorem opsA_keep_main_arg2 : after (opsA (F := F)) W (Proc.devRef .tc main_arg2) = W (Proc.devRef .tc main_arg2) := by
  after_results_simp <;> rfl
theorem opsA_keep_main_arg3 : after (opsA (F := F)) W (Proc.devRef .tc main_arg3) = W (Proc.devRef .tc main_arg3) := by
  after_results_simp <;> rfl
theorem opsA_keep_main_arg4 : after (opsA (F := F)) W (Proc.devRef .tc main_arg4) = W (Proc.devRef .tc main_arg4) := by
  after_results_simp <;> rfl
theorem opsA_keep_main_arg5 : after (opsA (F := F)) W (Proc.devRef .tc main_arg5) = W (Proc.devRef .tc main_arg5) := by
  after_results_simp <;> rfl
theorem opsA_keep_main_arg6 : after (opsA (F := F)) W (Proc.devRef .tc main_arg6) = W (Proc.devRef .tc main_arg6) := by
  after_results_simp <;> rfl
theorem opsA_keep_main_arg7 : after (opsA (F := F)) W (Proc.devRef .tc main_arg7) = W (Proc.devRef .tc main_arg7) := by
  after_results_simp <;> rfl
theorem opsA_keep_main_arg8 : after (opsA (F := F)) W (Proc.devRef .tc main_arg8) = W (Proc.devRef .tc main_arg8) := by
  after_results_simp <;> rfl
theorem opsA_keep_main_arg9 : after (opsA (F := F)) W (Proc.devRef .tc main_arg9) = W (Proc.devRef .tc main_arg9) := by
  after_results_simp <;> rfl
theorem opsA_keep_main_arg10 : after (opsA (F := F)) W (Proc.devRef .tc main_arg10) = W (Proc.devRef .tc main_arg10) := by
  after_results_simp <;> rfl

theorem opsB_v50 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F))
    (h31 : W (Proc.devRef .tc main_v31) = val_main_v31 (F := F) x0 x1 x2 x3 x4)
    (h1 : W (Proc.devRef .tc main_v1) = val_main_v1 (F := F) x1) (h3 : W (Proc.devRef .tc main_v3) = val_main_v3 (F := F) x1)
    (h12 : W (Proc.devRef .tc main_v12) = val_main_v12 (F := F) x1) :
    after (opsB (F := F)) W (Proc.devRef .tc main_v50)
      = val_main_v50 (F := F) x0 x1 x2 x3 x4 (W (Proc.devRef .tc main_arg5)) (W (Proc.devRef .tc main_arg6)) (W (Proc.devRef .tc main_arg7)) := by
  after_results_simp
  rw [h31, h1, h3, h12]
  rfl
theorem opsB_keep_main_v1 : after (opsB (F := F)) W (Proc.devRef .tc main_v1) = W (Proc.devRef .tc main_v1) := by
  after_results_simp <;> rfl
theorem opsB_keep_main_v3 : after (opsB (F := F)) W (Proc.devRef .tc main_v3) = W (Proc.devRef .tc main_v3) := by
  after_results_simp <;> rfl
theorem opsB_keep_main_v12 : after (opsB (F := F)) W (Proc.devRef .tc main_v12) = W (Proc.devRef .tc main_v12) := by
  after_results_simp <;> rfl
theorem opsB_keep_main_arg0 : after (opsB (F := F)) W (Proc.devRef .tc main_arg0) = W (Proc.devRef .tc main_arg0) := by
  after_results_simp <;> rfl
theorem opsB_keep_main_arg1 : after (opsB (F := F)) W (Proc.devRef .tc main_arg1) = W (Proc.devRef .tc main_arg1) := by
  after_results_simp <;> rfl
theorem opsB_keep_main_arg2 : after (opsB (F := F)) W (Proc.devRef .tc main_arg2) = W (Proc.devRef .tc main_arg2) := by
  after_results_simp <;> rfl
theorem opsB_keep_main_arg3 : after (opsB (F := F)) W (Proc.devRef .tc main_arg3) = W (Proc.devRef .tc main_arg3) := by
  after_results_simp <;> rfl
theorem opsB_keep_main_arg4 : after (opsB (F := F)) W (Proc.devRef .tc main_arg4) = W (Proc.devRef .tc main_arg4) := by
  after_results_simp <;> rfl
theorem opsB_keep_main_arg5 : after (opsB (F := F)) W (Proc.devRef .tc main_arg5) = W (Proc.devRef .tc main_arg5) := by
  after_results_simp <;> rfl
theorem opsB_keep_main_arg6 : after (opsB (F := F)) W (Proc.devRef .tc main_arg6) = W (Proc.devRef .tc main_arg6) := by
  after_results_simp <;> rfl
theorem opsB_keep_main_arg7 : after (opsB (F := F)) W (Proc.devRef .tc main_arg7) = W (Proc.devRef .tc main_arg7) := by
  after_results_simp <;> rfl
theorem opsB_keep_main_arg8 : after (opsB (F := F)) W (Proc.devRef .tc main_arg8) = W (Proc.devRef .tc main_arg8) := by
  after_results_simp <;> rfl
theorem opsB_keep_main_arg9 : after (opsB (F := F)) W (Proc.devRef .tc main_arg9) = W (Proc.devRef .tc main_arg9) := by
  after_results_simp <;> rfl
theorem opsB_keep_main_arg10 : after (opsB (F := F)) W (Proc.devRef .tc main_arg10) = W (Proc.devRef .tc main_arg10) := by
  after_results_simp <;> rfl

theorem opsC_v68 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F))
    (h50 : W (Proc.devRef .tc main_v50) = val_main_v50 (F := F) x0 x1 x2 x3 x4 x5 x6 x7)
    (h1 : W (Proc.devRef .tc main_v1) = val_main_v1 (F := F) x1) (h3 : W (Proc.devRef .tc main_v3) = val_main_v3 (F := F) x1)
    (h12 : W (Proc.devRef .tc main_v12) = val_main_v12 (F := F) x1) :
    after (opsC (F := F)) W (Proc.devRef .tc main_v68)
      = val_main_v68 (F := F) x0 x1 x2 x3 x4 x5 x6 x7 (W (Proc.devRef .tc main_arg8)) (W (Proc.devRef .tc main_arg9)) (W (Proc.devRef .tc main_arg10)) := by
  after_results_simp
  rw [h50, h1, h3, h12]
  rfl
theorem opsC_keep_main_arg0 : after (opsC (F := F)) W (Proc.devRef .tc main_arg0) = W (Proc.devRef .tc main_arg0) := by
  after_results_simp <;> rfl
theorem opsC_keep_main_arg1 : after (opsC (F := F)) W (Proc.devRef .tc main_arg1) = W (Proc.devRef .tc main_arg1) := by
  after_results_simp <;> rfl
theorem opsC_keep_main_arg2 : after (opsC (F := F)) W (Proc.devRef .tc main_arg2) = W (Proc.devRef .tc main_arg2) := by
  after_results_simp <;> rfl
theorem opsC_keep_main_arg3 : after (opsC (F := F)) W (Proc.devRef .tc main_arg3) = W (Proc.devRef .tc main_arg3) := by
  after_results_simp <;> rfl
theorem opsC_keep_main_arg4 : after (opsC (F := F)) W (Proc.devRef .tc main_arg4) = W (Proc.devRef .tc main_arg4) := by
  after_results_simp <;> rfl
theorem opsC_keep_main_arg5 : after (opsC (F := F)) W (Proc.devRef .tc main_arg5) = W (Proc.devRef .tc main_arg5) := by
  after_results_simp <;> rfl
theorem opsC_keep_main_arg6 : after (opsC (F := F)) W (Proc.devRef .tc main_arg6) = W (Proc.devRef .tc main_arg6) := by
  after_results_simp <;> rfl
theorem opsC_keep_main_arg7 : after (opsC (F := F)) W (Proc.devRef .tc main_arg7) = W (Proc.devRef .tc main_arg7) := by
  after_results_simp <;> rfl
theorem opsC_keep_main_arg8 : after (opsC (F := F)) W (Proc.devRef .tc main_arg8) = W (Proc.devRef .tc main_arg8) := by
  after_results_simp <;> rfl
theorem opsC_keep_main_arg9 : after (opsC (F := F)) W (Proc.devRef .tc main_arg9) = W (Proc.devRef .tc main_arg9) := by
  after_results_simp <;> rfl
theorem opsC_keep_main_arg10 : after (opsC (F := F)) W (Proc.devRef .tc main_arg10) = W (Proc.devRef .tc main_arg10) := by
  after_results_simp <;> rfl

theorem opsD_v69 (x0 : (⟨S100000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128x128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128x47, .f32⟩ : BufTy).Contents (Elt F)) (x9 : (⟨S47, .f32⟩ : BufTy).Contents (Elt F)) (x10 : (⟨S128x47, .f32⟩ : BufTy).Contents (Elt F))
    (h68 : W (Proc.devRef .tc main_v68) = val_main_v68 (F := F) x0 x1 x2 x3 x4 x5 x6 x7 x8 x9 x10) :
    after (opsD (F := F)) W (Proc.devRef .tc main_v69) = val_main_v69 (F := F) x0 x1 x2 x3 x4 x5 x6 x7 x8 x9 x10 := by
  after_results_simp
  simp only [ofBuf_toBuf]
  rw [h68]
  rfl
theorem opsD_keep_main_arg0 : after (opsD (F := F)) W (Proc.devRef .tc main_arg0) = W (Proc.devRef .tc main_arg0) := by
  after_results_simp <;> rfl
theorem opsD_keep_main_arg1 : after (opsD (F := F)) W (Proc.devRef .tc main_arg1) = W (Proc.devRef .tc main_arg1) := by
  after_results_simp <;> rfl
theorem opsD_keep_main_arg2 : after (opsD (F := F)) W (Proc.devRef .tc main_arg2) = W (Proc.devRef .tc main_arg2) := by
  after_results_simp <;> rfl
theorem opsD_keep_main_arg3 : after (opsD (F := F)) W (Proc.devRef .tc main_arg3) = W (Proc.devRef .tc main_arg3) := by
  after_results_simp <;> rfl
theorem opsD_keep_main_arg4 : after (opsD (F := F)) W (Proc.devRef .tc main_arg4) = W (Proc.devRef .tc main_arg4) := by
  after_results_simp <;> rfl
theorem opsD_keep_main_arg5 : after (opsD (F := F)) W (Proc.devRef .tc main_arg5) = W (Proc.devRef .tc main_arg5) := by
  after_results_simp <;> rfl
theorem opsD_keep_main_arg6 : after (opsD (F := F)) W (Proc.devRef .tc main_arg6) = W (Proc.devRef .tc main_arg6) := by
  after_results_simp <;> rfl
theorem opsD_keep_main_arg7 : after (opsD (F := F)) W (Proc.devRef .tc main_arg7) = W (Proc.devRef .tc main_arg7) := by
  after_results_simp <;> rfl
theorem opsD_keep_main_arg8 : after (opsD (F := F)) W (Proc.devRef .tc main_arg8) = W (Proc.devRef .tc main_arg8) := by
  after_results_simp <;> rfl
theorem opsD_keep_main_arg9 : after (opsD (F := F)) W (Proc.devRef .tc main_arg9) = W (Proc.devRef .tc main_arg9) := by
  after_results_simp <;> rfl
theorem opsD_keep_main_arg10 : after (opsD (F := F)) W (Proc.devRef .tc main_arg10) = W (Proc.devRef .tc main_arg10) := by
  after_results_simp <;> rfl

/-- No stretch writes an argument. -/
theorem ops_keep_main_arg0 : after (ops (F := F)) W (Proc.devRef .tc main_arg0) = W (Proc.devRef .tc main_arg0) := by
  rw [ops_split, after_append, after_append, after_append, opsD_keep_main_arg0, opsC_keep_main_arg0, opsB_keep_main_arg0, opsA_keep_main_arg0]
theorem ops_keep_main_arg1 : after (ops (F := F)) W (Proc.devRef .tc main_arg1) = W (Proc.devRef .tc main_arg1) := by
  rw [ops_split, after_append, after_append, after_append, opsD_keep_main_arg1, opsC_keep_main_arg1, opsB_keep_main_arg1, opsA_keep_main_arg1]
theorem ops_keep_main_arg2 : after (ops (F := F)) W (Proc.devRef .tc main_arg2) = W (Proc.devRef .tc main_arg2) := by
  rw [ops_split, after_append, after_append, after_append, opsD_keep_main_arg2, opsC_keep_main_arg2, opsB_keep_main_arg2, opsA_keep_main_arg2]
theorem ops_keep_main_arg3 : after (ops (F := F)) W (Proc.devRef .tc main_arg3) = W (Proc.devRef .tc main_arg3) := by
  rw [ops_split, after_append, after_append, after_append, opsD_keep_main_arg3, opsC_keep_main_arg3, opsB_keep_main_arg3, opsA_keep_main_arg3]
theorem ops_keep_main_arg4 : after (ops (F := F)) W (Proc.devRef .tc main_arg4) = W (Proc.devRef .tc main_arg4) := by
  rw [ops_split, after_append, after_append, after_append, opsD_keep_main_arg4, opsC_keep_main_arg4, opsB_keep_main_arg4, opsA_keep_main_arg4]
theorem ops_keep_main_arg5 : after (ops (F := F)) W (Proc.devRef .tc main_arg5) = W (Proc.devRef .tc main_arg5) := by
  rw [ops_split, after_append, after_append, after_append, opsD_keep_main_arg5, opsC_keep_main_arg5, opsB_keep_main_arg5, opsA_keep_main_arg5]
theorem ops_keep_main_arg6 : after (ops (F := F)) W (Proc.devRef .tc main_arg6) = W (Proc.devRef .tc main_arg6) := by
  rw [ops_split, after_append, after_append, after_append, opsD_keep_main_arg6, opsC_keep_main_arg6, opsB_keep_main_arg6, opsA_keep_main_arg6]
theorem ops_keep_main_arg7 : after (ops (F := F)) W (Proc.devRef .tc main_arg7) = W (Proc.devRef .tc main_arg7) := by
  rw [ops_split, after_append, after_append, after_append, opsD_keep_main_arg7, opsC_keep_main_arg7, opsB_keep_main_arg7, opsA_keep_main_arg7]
theorem ops_keep_main_arg8 : after (ops (F := F)) W (Proc.devRef .tc main_arg8) = W (Proc.devRef .tc main_arg8) := by
  rw [ops_split, after_append, after_append, after_append, opsD_keep_main_arg8, opsC_keep_main_arg8, opsB_keep_main_arg8, opsA_keep_main_arg8]
theorem ops_keep_main_arg9 : after (ops (F := F)) W (Proc.devRef .tc main_arg9) = W (Proc.devRef .tc main_arg9) := by
  rw [ops_split, after_append, after_append, after_append, opsD_keep_main_arg9, opsC_keep_main_arg9, opsB_keep_main_arg9, opsA_keep_main_arg9]
theorem ops_keep_main_arg10 : after (ops (F := F)) W (Proc.devRef .tc main_arg10) = W (Proc.devRef .tc main_arg10) := by
  rw [ops_split, after_append, after_append, after_append, opsD_keep_main_arg10, opsC_keep_main_arg10, opsB_keep_main_arg10, opsA_keep_main_arg10]

/-- The result buffer after all the operations: the last stage of the arguments' contents. -/
theorem ops_v69 : after (ops (F := F)) W (Proc.devRef .tc main_v69)
    = val_main_v69 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) := by
  rw [ops_split, after_append, after_append, after_append]
  have hB50 : after (opsB (F := F)) (after (opsA (F := F)) W) (Proc.devRef .tc main_v50)
      = val_main_v50 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
    have h := opsB_v50 (after (opsA (F := F)) W) _ _ _ _ _ (opsA_v31 W) (opsA_v1 W) (opsA_v3 W) (opsA_v12 W)
    rwa [opsA_keep_main_arg5, opsA_keep_main_arg6, opsA_keep_main_arg7] at h
  have hB1 : after (opsB (F := F)) (after (opsA (F := F)) W) (Proc.devRef .tc main_v1) = val_main_v1 (F := F) (W (Proc.devRef .tc main_arg1)) :=
    (opsB_keep_main_v1 _).trans (opsA_v1 W)
  have hB3 : after (opsB (F := F)) (after (opsA (F := F)) W) (Proc.devRef .tc main_v3) = val_main_v3 (F := F) (W (Proc.devRef .tc main_arg1)) :=
    (opsB_keep_main_v3 _).trans (opsA_v3 W)
  have hB12 : after (opsB (F := F)) (after (opsA (F := F)) W) (Proc.devRef .tc main_v12) = val_main_v12 (F := F) (W (Proc.devRef .tc main_arg1)) :=
    (opsB_keep_main_v12 _).trans (opsA_v12 W)
  have hC := opsC_v68 (after (opsB (F := F)) (after (opsA (F := F)) W)) _ _ _ _ _ _ _ _ hB50 hB1 hB3 hB12
  rw [opsB_keep_main_arg8, opsA_keep_main_arg8, opsB_keep_main_arg9, opsA_keep_main_arg9, opsB_keep_main_arg10,
    opsA_keep_main_arg10] at hC
  exact opsD_v69 (after (opsC (F := F)) (after (opsB (F := F)) (after (opsA (F := F)) W))) _ _ _ _ _ _ _ _ _ _ _ hC

end Stretches

/-- The reference's run with its result read: on every device, from any memory with zero counters, every weakly fair
    execution of @main terminates with the result at the last stage of the arguments as launched, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v69) = val_main_v69 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨(h c main_v69).trans (ops_v69 (launchContents m c)),
      (h c main_arg0).trans (ops_keep_main_arg0 (launchContents m c)),
      (h c main_arg1).trans (ops_keep_main_arg1 (launchContents m c)),
      (h c main_arg2).trans (ops_keep_main_arg2 (launchContents m c)),
      (h c main_arg3).trans (ops_keep_main_arg3 (launchContents m c)),
      (h c main_arg4).trans (ops_keep_main_arg4 (launchContents m c)),
      (h c main_arg5).trans (ops_keep_main_arg5 (launchContents m c)),
      (h c main_arg6).trans (ops_keep_main_arg6 (launchContents m c)),
      (h c main_arg7).trans (ops_keep_main_arg7 (launchContents m c)),
      (h c main_arg8).trans (ops_keep_main_arg8 (launchContents m c)),
      (h c main_arg9).trans (ops_keep_main_arg9 (launchContents m c)),
      (h c main_arg10).trans (ops_keep_main_arg10 (launchContents m c))⟩)
    (run_after m ρ)

end Cert.Sage.RefValue

end
-- ==== Proof.lean ====
/-
  A three-layer graph network with mean aggregation, its dense layers as tiled kernels, against the same network in plain
  array operations: the two compute the same function of the eleven arguments over the extended reals.

  Both programs prepare, from the edge list, the edge sources and targets and the inverse degrees, and before each layer
  aggregate the node features (gather along the sources, scatter-add at the targets, scale by the inverse degree) with the
  same host operations. A layer is then  (A·Wl + H·Wr) + b  of the aggregated features A and the node features H, clamped
  below at zero in the two hidden layers and followed by the logarithm of the soft maximum along each row in the last.
  The kernel computes a layer in 20 row blocks of 5000 rows, each entry from one row of its blocks, the operands passed
  through a change of float format that is the identity here; the reference computes  (A·Wl + b) + H·Wr  on the whole
  arrays. Entry by entry these are the same sums of products in a different order of additions, and addition of extended
  reals is commutative and associative, so no finiteness of the inputs is used. The last layer's row maximum is folded from
  −∞ on both sides (the reference takes the larger of −∞ and that fold: the fold), its row sum from zero.

  The kernel's three regions are framed by the generated frame; its result array is read through the fold of the segment
  boundaries (the launch called again with the result named). The reference's run is read stretch by stretch against its
  own stage functions, and the kernel's result is shown to be the reference's last stage of the arguments.
-/
import proofs.«173815_j78408922955889_1_alg».proof.Defs
import proofs.«173815_j78408922955889_1_alg».proof.Proof.Gen.Kernel
import proofs.«173815_j78408922955889_1_alg».proof.Proof.Gen.Kernel.Skeleton
import proofs.«173815_j78408922955889_1_alg».proof.Proof.Gen.Kernel.Launch
import proofs.«173815_j78408922955889_1_alg».proof.Proof.Gen.Kernel.Points
import proofs.«173815_j78408922955889_1_alg».proof.Proof.Gen.Kernel.Frame
import proofs.«173815_j78408922955889_1_alg».proof.Proof.Gen.KernelIdeal
import proofs.«173815_j78408922955889_1_alg».proof.Proof.Gen.KernelIdeal.Skeleton
import proofs.«173815_j78408922955889_1_alg».proof.Proof.Gen.KernelIdeal.Launch
import proofs.«173815_j78408922955889_1_alg».proof.Proof.Gen.KernelIdeal.Points
import proofs.«173815_j78408922955889_1_alg».proof.Proof.Gen.KernelIdeal.Frame
import proofs.«173815_j78408922955889_1_alg».proof.Proof.Gen.ReferenceIdeal
import proofs.«173815_j78408922955889_1_alg».proof.Proof.Gen.Pre_finite_inputs
import proofs.«173815_j78408922955889_1_alg».proof.Proof.KRun
import proofs.«173815_j78408922955889_1_alg».proof.Proof.KFold
import proofs.«173815_j78408922955889_1_alg».proof.Proof.RefValue
import Idealize.ShloMosaic.Adequacy
import Idealize.ShloMosaic.Init

set_option maxRecDepth 16384

noncomputable section

namespace Cert.Proof

open Idealize.ShloMosaic Idealize.SL.Sem

/-- The kernel as printed runs and leaves its arguments: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments: its run, the result dropped. -/
theorem frame_referenceIdeal : Cert.frame_ReferenceIdeal := fun m ρ _ =>
  (θ_run Cert.ReferenceIdeal.defs _ _).mono (fun _ h c => (h c).2) (Cert.Sage.RefValue.run (F := Ideal) m ρ)

/-- The idealized kernel's run with its result read: the reference's last stage of the kernel's own arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v54)
          = Cert.ReferenceIdeal.ReadP.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)) :=
  (θ_run Cert.KernelIdeal.defs _ _).mono (fun r h c => ⟨(h c).1.trans (Cert.Sage.KFold.result_eq m ρ c), (h c).2⟩)
    (Cert.KernelIdeal.GenRun.run_named m ρ)

/-- From memories that agree on the arguments both programs end with the same result: the reference's last stage of
    those arguments. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨(h c).1.trans ?_, (h c).2⟩)
    (Cert.Sage.RefValue.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
